-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128x128 .f32) (main_arg9 : FVec F S256x128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S128x128 .f32) (main_arg8 : FVec F S128x128 .f32) (main_arg9 : FVec F S256x128 .f32) (main_arg10 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S128 .f32) (main_arg3 : FVec F S128 .f32) (main_arg4 : FVec F S128 .f32) (main_arg5 : FVec F S128 .f32) (main_arg6 : FVec F S128 .f32) (main_arg7 : FVec F S128x128 .f32) (main_arg8 : FVec F S128x128 .f32) (main_arg9 : FVec F S256x128 .f32) (main_arg10 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S6400x128 : Shape := ⟨2, ![6400, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩
abbrev S2000x1 : Shape := ⟨2, ![2000, 1]⟩
abbrev S2000 : Shape := ⟨1, ![2000]⟩
abbrev S2000x256 : Shape := ⟨2, ![2000, 256]⟩

abbrev nBuf : Space → Nat
  | .hbm => 42
  | .vmem => 21
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S256x128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .f32⟩
  | .hbm, ⟨25, _⟩ => ⟨S_, .f32⟩
  | .hbm, ⟨26, _⟩ => ⟨S40000x128, .f32⟩
  | .hbm, ⟨27, _⟩ => ⟨S640000x1, .i32⟩
  | .hbm, ⟨28, _⟩ => ⟨S40000x128, .f32⟩
  | .hbm, ⟨29, _⟩ => ⟨S_, .f32⟩
  | .hbm, ⟨30, _⟩ => ⟨S640000, .f32⟩
  | .hbm, ⟨31, _⟩ => ⟨S_, .f32⟩
  | .hbm, ⟨32, _⟩ => ⟨S40000, .f32⟩
  | .hbm, ⟨33, _⟩ => ⟨S640000x1, .i32⟩
  | .hbm, ⟨34, _⟩ => ⟨S40000, .f32⟩
  | .hbm, ⟨35, _⟩ => ⟨S40000x1, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S40000x128, .f32⟩
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S128x128, .f32⟩
  | .local _ .vmem, ⟨4, _⟩ => ⟨S6400x128, .f32⟩
  | .local _ .vmem, ⟨5, _⟩ => ⟨S6400x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S256x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  gather_S40000x128_S640000x1_S640000x128_1_0_n_n_0_1_1128_wf : GatherDims.WF S40000x128 S640000x1 S640000x128 [1] [0] [] [0] [] 1 ![1, 128]
  dot_S6400x128_S128x128_S6400x128_1_0_0_1_n_n_wf : DotDims.WF S6400x128 S128x128 S6400x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x128.size a ≤ S640000x128.size a
  hwx0_3 : ∀ i : grid0.Coords, EltTy.bits .f32 = 32 ∨ (Rect.block (s := S640000x128) S6400x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S40000x1.size a
  hwx1_2 : ∀ i : grid1.Coords, EltTy.bits .f32 = 32 ∨ (Rect.block (s := S40000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .f32 = 32 ∨ (Rect.block (s := S256x128) S256x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S40000x128.size a
  hwx1_10 : ∀ i : grid1.Coords, EltTy.bits .f32 = 32 ∨ (Rect.block (s := S40000x128) S2000x128.size (cc1_transform_10 i) (hinb1_10 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S6400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x256 : Shape := ⟨2, ![40000, 256]⟩

abbrev nBuf : Space → Nat
  | .hbm => 114
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S256x128, .f32⟩
  | .hbm, ⟨10, _⟩ => ⟨S128x128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x128, .f32⟩
  | .hbm, ⟨25, _⟩ => ⟨S_, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S640000, .f32⟩
  | .hbm, ⟨35, _⟩ => ⟨S_, .f32⟩
  | .hbm, ⟨36, _⟩ => ⟨S40000, .f32⟩
  | .hbm, ⟨37, _⟩ => ⟨S640000x1, .i32⟩
  | .hbm, ⟨38, _⟩ => ⟨S40000, .f32⟩
  | .hbm, ⟨39, _⟩ => ⟨S_, .f32⟩
  | .hbm, ⟨40, _⟩ => ⟨S40000, .f32⟩
  | .hbm, ⟨41, _⟩ => ⟨S40000, .f32⟩
  | .hbm, ⟨42, _⟩ => ⟨S40000x1, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000, .f32⟩
  | .hbm, ⟨47, _⟩ => ⟨S40000x1, .f32⟩
  | .hbm, ⟨48, _⟩ => ⟨S_, .f32⟩
  | .hbm, ⟨49, _⟩ => ⟨S40000x1, .f32⟩
  | .hbm, ⟨50, _⟩ => ⟨S40000x1, .f32⟩
  | .hbm, ⟨51, _⟩ => ⟨S40000x128, .f32⟩
  | .hbm, ⟨52, _⟩ => ⟨S40000x128, .f32⟩
  | .hbm, ⟨53, _⟩ => ⟨S40000x128, .f32⟩
  | .hbm, ⟨54, _⟩ => ⟨S_, .f32⟩
  | .hbm, ⟨55, _⟩ => ⟨S40000, .f32⟩
  | .hbm, ⟨56, _⟩ => ⟨S40000x1, .f32⟩
  | .hbm, ⟨57, _⟩ => ⟨S_, .f32⟩
  | .hbm, ⟨58, _⟩ => ⟨S40000x1, .f32⟩
  | .hbm, ⟨59, _⟩ => ⟨S40000x1, .f32⟩
  | .hbm, ⟨60, _⟩ => ⟨S40000x128, .f32⟩
  | .hbm, ⟨61, _⟩ => ⟨S40000x128, .f32⟩
  | .hbm, ⟨62, _⟩ => ⟨S_, .f32⟩
  | .hbm, ⟨63, _⟩ => ⟨S40000x1, .f32⟩
  | .hbm, ⟨64, _⟩ => ⟨S40000x1, .f32⟩
  | .hbm, ⟨65, _⟩ => ⟨S40000x1, .f32⟩
  | .hbm, ⟨66, _⟩ => ⟨S40000x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S1x128, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S1x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000, .f32⟩
  | .hbm, ⟨81, _⟩ => ⟨S40000x1, .f32⟩
  | .hbm, ⟨82, _⟩ => ⟨S_, .f32⟩
  | .hbm, ⟨83, _⟩ => ⟨S40000x1, .f32⟩
  | .hbm, ⟨84, _⟩ => ⟨S40000x1, .f32⟩
  | .hbm, ⟨85, _⟩ => ⟨S40000x128, .f32⟩
  | .hbm, ⟨86, _⟩ => ⟨S40000x128, .f32⟩
  | .hbm, ⟨87, _⟩ => ⟨S40000x128, .f32⟩
  | .hbm, ⟨88, _⟩ => ⟨S_, .f32⟩
  | .hbm, ⟨89, _⟩ => ⟨S40000, .f32⟩
  | .hbm, ⟨90, _⟩ => ⟨S40000x1, .f32⟩
  | .hbm, ⟨91, _⟩ => ⟨S_, .f32⟩
  | .hbm, ⟨92, _⟩ => ⟨S40000x1, .f32⟩
  | .hbm, ⟨93, _⟩ => ⟨S40000x1, .f32⟩
  | .hbm, ⟨94, _⟩ => ⟨S40000x128, .f32⟩
  | .hbm, ⟨95, _⟩ => ⟨S40000x128, .f32⟩
  | .hbm, ⟨96, _⟩ => ⟨S_, .f32⟩
  | .hbm, ⟨97, _⟩ => ⟨S40000x1, .f32⟩
  | .hbm, ⟨98, _⟩ => ⟨S40000x1, .f32⟩
  | .hbm, ⟨99, _⟩ => ⟨S40000x1, .f32⟩
  | .hbm, ⟨100, _⟩ => ⟨S40000x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | .hbm, ⟨105, _⟩ => ⟨S1x128, .f32⟩
  | .hbm, ⟨106, _⟩ => ⟨S40000x128, .f32⟩
  | .hbm, ⟨107, _⟩ => ⟨S40000x128, .f32⟩
  | .hbm, ⟨108, _⟩ => ⟨S40000x256, .f32⟩
  | .hbm, ⟨109, _⟩ => ⟨S40000x128, .f32⟩
  | .hbm, ⟨110, _⟩ => ⟨S_, .f32⟩
  | .hbm, ⟨111, _⟩ => ⟨S40000x128, .f32⟩
  | .hbm, ⟨112, _⟩ => ⟨S40000x128, .f32⟩
  | .hbm, ⟨113, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  concatenates_S40000x128_S40000x128_S40000x256_d1 : Shape.Concatenates [S40000x128, S40000x128] S40000x256 1
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x256_S256x128_S40000x128_1_0_0_1_n_n_wf : DotDims.WF S40000x256 S256x128 S40000x128 [1] [0] [0] [1] [] []
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.HostReads.lean ====
/-
  What the host operations of the kernel program leave in the buffers the two kernel regions read.

  Before the first region: the edges' source indices (row 0 of the edge list, a negative index wrapped once by the node
  count) and the source rows gathered by them. Between the regions: the messages summed into their destination nodes'
  rows (a scatter-add into zeros by row 1 of the edge list), the in-degrees (the same scatter-add of ones) kept as a
  column, and the five feature vectors recast as one-row matrices. Every other buffer a region reads is an argument no
  host operation writes.
-/
import proofs.«175304_j43980465111676_1_alg».proof.Proof.Gen.KernelIdeal.Launch
import Idealize.ShloMosaic.Lib.StableHlo.Run

set_option maxRecDepth 16384

noncomputable section

namespace Cert.KernelIdeal.HostReads

open Cert.KernelIdeal Cert.KernelIdeal.Gen Idealize.ShloMosaic Idealize.ShloMosaic.TcCoe Idealize.ShloMosaic.StableHlo

variable {F : FTy → Type} [FloatOps F]

/-- Row 0 of the edge list as a vector: the edges' source nodes as given. -/
def srcRaw (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- Row 1 of the edge list as a vector: the edges' destination nodes. -/
def dstIdx (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The source rows of the node features, one per edge: a negative source index is wrapped once by the node count. -/
def gathered (x : (⟨S40000x128, .f32⟩ : BufTy).Contents (Elt F)) (e : (⟨S2x640000, .i32⟩ : BufTy).Contents (Elt F)) :
    (⟨S640000x128, .f32⟩ : BufTy).Contents (Elt F) :=
  Host.gather gather_S40000x128_S640000x1_S640000x128_1_0_n_n_0_1_1128 x (broadcastInDim S640000x1 ![0] bcast_S640000_S640000x1_0 (select (cmpi .slt (srcRaw e) (broadcastInDim S640000 ![] bcast_S_S640000 (constantI S_ 32 0#32))) (addi (srcRaw e) (broadcastInDim S640000 ![] bcast_S_S640000 (constantI S_ 32 40000#32))) (srcRaw e)))

/-- The messages summed into their destination nodes' rows. -/
def aggOf (d : (⟨S640000, .i32⟩ : BufTy).Contents (Elt F)) (msg : (⟨S640000x128, .f32⟩ : BufTy).Contents (Elt F)) :
    (⟨S40000x128, .f32⟩ : BufTy).Contents (Elt F) :=
  Host.scatterAdd scatter_S40000x128_S640000x1_S640000x128_1_0_0_1 (broadcastInDim S40000x128 ![] bcast_S_S40000x128 (constant S_ .f32 0x00000000#32)) (broadcastInDim S640000x1 ![0] bcast_S640000_S640000x1_0 d) msg

/-- The in-degrees: ones summed into the destination nodes. -/
def cntOf (d : (⟨S640000, .i32⟩ : BufTy).Contents (Elt F)) : (⟨S40000, .f32⟩ : BufTy).Contents (Elt F) :=
  Host.scatterAdd scatter_S40000_S640000x1_S640000_n_0_0_1 (broadcastInDim S40000 ![] bcast_S_S40000 (constant S_ .f32 0x00000000#32)) (broadcastInDim S640000x1 ![0] bcast_S640000_S640000x1_0 d) (broadcastInDim S640000 ![] bcast_S_S640000 (constant S_ .f32 0x3F800000#32))

variable (W : Valuation τ sig (Elt F))

/-! ## Before the first region -/

theorem pre_v10 : after hostOps0 W (Proc.devRef .tc main_v10) = gathered (W (Proc.devRef .tc main_arg0)) (W (Proc.devRef .tc main_arg1)) := by
  after_results; rfl

theorem pre_v3 : after hostOps0 W (Proc.devRef .tc main_v3) = dstIdx (W (Proc.devRef .tc main_arg1)) := by
  after_results; rfl

theorem pre_arg7 : after hostOps0 W (Proc.devRef .tc main_arg7) = W (Proc.devRef .tc main_arg7) := by
  after_results
theorem pre_arg8 : after hostOps0 W (Proc.devRef .tc main_arg8) = W (Proc.devRef .tc main_arg8) := by
  after_results

theorem pre_arg0 : after hostOps0 W (Proc.devRef .tc main_arg0) = W (Proc.devRef .tc main_arg0) := by
  after_results
theorem pre_arg2 : after hostOps0 W (Proc.devRef .tc main_arg2) = W (Proc.devRef .tc main_arg2) := by
  after_results
theorem pre_arg3 : after hostOps0 W (Proc.devRef .tc main_arg3) = W (Proc.devRef .tc main_arg3) := by
  after_results
theorem pre_arg4 : after hostOps0 W (Proc.devRef .tc main_arg4) = W (Proc.devRef .tc main_arg4) := by
  after_results
theorem pre_arg5 : after hostOps0 W (Proc.devRef .tc main_arg5) = W (Proc.devRef .tc main_arg5) := by
  after_results
theorem pre_arg6 : after hostOps0 W (Proc.devRef .tc main_arg6) = W (Proc.devRef .tc main_arg6) := by
  after_results
theorem pre_arg9 : after hostOps0 W (Proc.devRef .tc main_arg9) = W (Proc.devRef .tc main_arg9) := by
  after_results
theorem pre_arg10 : after hostOps0 W (Proc.devRef .tc main_arg10) = W (Proc.devRef .tc main_arg10) := by
  after_results

/-! ## Between the regions -/

theorem mid_v14 : after hostOps1 W (Proc.devRef .tc main_v14) = aggOf (W (Proc.devRef .tc main_v3)) (W (Proc.devRef .tc main_v11)) := by
  after_results; rfl

theorem mid_v19 : after hostOps1 W (Proc.devRef .tc main_v19) = broadcastInDim S40000x1 ![0] bcast_S40000_S40000x1_0 (cntOf (W (Proc.devRef .tc main_v3))) := by
  after_results; rfl

theorem mid_v20 : after hostOps1 W (Proc.devRef .tc main_v20) = shapeCast S1x128 (W (Proc.devRef .tc main_arg2)) shapeCasts_S128_S1x128 := by
  after_results; rfl
theorem mid_v21 : after hostOps1 W (Proc.devRef .tc main_v21) = shapeCast S1x128 (W (Proc.devRef .tc main_arg3)) shapeCasts_S128_S1x128 := by
  after_results; rfl
theorem mid_v22 : after hostOps1 W (Proc.devRef .tc main_v22) = shapeCast S1x128 (W (Proc.devRef .tc main_arg4)) shapeCasts_S128_S1x128 := by
  after_results; rfl
theorem mid_v23 : after hostOps1 W (Proc.devRef .tc main_v23) = shapeCast S1x128 (W (Proc.devRef .tc main_arg5)) shapeCasts_S128_S1x128 := by
  after_results; rfl
theorem mid_v24 : after hostOps1 W (Proc.devRef .tc main_v24) = shapeCast S1x128 (W (Proc.devRef .tc main_arg6)) shapeCasts_S128_S1x128 := by
  after_results; rfl

theorem mid_arg0 : after hostOps1 W (Proc.devRef .tc main_arg0) = W (Proc.devRef .tc main_arg0) := by
  after_results
theorem mid_arg9 : after hostOps1 W (Proc.devRef .tc main_arg9) = W (Proc.devRef .tc main_arg9) := by
  after_results
theorem mid_arg10 : after hostOps1 W (Proc.devRef .tc main_arg10) = W (Proc.devRef .tc main_arg10) := by
  after_results

end Cert.KernelIdeal.HostReads

end
-- ==== Proof.Spec.lean ====
/-
  The mathematics both programs compute, one ROW at a time, over the extended reals.

  A node's output row depends only on that node's own rows of the inputs: the aggregated message row is divided by the
  clipped in-degree, normalised (mean and variance over the 128 features, `rsqrt` of the variance plus a constant, a
  gain and a bias), mixed with the node's feature row, normalised again, the two normalised rows are laid side by side
  into 256 features, and a two-layer perceptron with a rectifier between the layers maps them to 128 outputs. An edge's
  message row is the same kind of perceptron applied to the source node's feature row.

  Every sum here is a plain finite sum; no law of arithmetic beyond re-indexing is used anywhere, so nothing needs the
  inputs to be finite. Float constants stay as their binary patterns: the same pattern appears on both sides.
-/
import Idealize.ShloMosaic.PureOps.Ideal

noncomputable section

namespace Cert.Spec

open Idealize.ShloMosaic

/-- The rectifier: the larger of a value and the float zero. -/
def relu (a : EReal) : EReal := max a (Ideal.ofBits .f32 0x00000000#32)

/-- Two matrix products with a rectifier between them, on one row: `(relu (row · A)) · B`. -/
def mlpRow {n : Nat} (c : Fin n → EReal) (A : Fin n → Fin 128 → EReal) (B : Fin 128 → Fin 128 → EReal) : Fin 128 → EReal :=
  fun j => ∑ k : Fin 128, relu (∑ l : Fin n, c l * A l k) * B k j

/-- The mean of a row of 128 entries: the sum divided by the float 128. -/
def mean128 (v : Fin 128 → EReal) : EReal := Ideal.div (∑ k : Fin 128, v k) (Ideal.ofBits .f32 0x43000000#32)

/-- Layer normalisation of one row: centred, scaled by `rsqrt` of the variance plus the constant `f32 1e-5`, then a gain and a bias. -/
def lnRow (v g b : Fin 128 → EReal) : Fin 128 → EReal := fun k =>
  (v k - mean128 v) * Ideal.rsqrt (mean128 (fun q => (v q - mean128 v) * (v q - mean128 v)) + Ideal.ofBits .f32 0x3727C5AC#32) * g k + b k

/-- The mean message of a node: the summed message row divided by the in-degree clipped below at the float one. -/
def meanRow (a : Fin 128 → EReal) (cn : EReal) : Fin 128 → EReal := fun k => Ideal.div (a k) (max cn (Ideal.ofBits .f32 0x3F800000#32))

/-- The residual mix: `x + (x - n) * w`. -/
def mixRow (x n w : Fin 128 → EReal) : Fin 128 → EReal := fun k => x k + (x k - n k) * w k

/-- Two rows of 128 entries side by side. -/
def catRow (a b : Fin 128 → EReal) : Fin 256 → EReal := fun l =>
  if h : l.val < 128 then a ⟨l.val, h⟩ else b ⟨l.val - 128, by have := l.isLt; omega⟩

/-- A node's normalised mean message row. -/
def aggNormRow (a : Fin 128 → EReal) (cn : EReal) (g1 b1 : Fin 128 → EReal) : Fin 128 → EReal := lnRow (meanRow a cn) g1 b1

/-- A node's output row, from its feature row `x`, its summed message row `a`, its in-degree `cn`, and the weights. -/
def outRow (x a : Fin 128 → EReal) (cn : EReal) (g1 b1 g2 b2 w : Fin 128 → EReal)
    (O1 : Fin 256 → Fin 128 → EReal) (O2 : Fin 128 → Fin 128 → EReal) : Fin 128 → EReal :=
  mlpRow (catRow (lnRow (mixRow x (aggNormRow a cn g1 b1) w) g2 b2) (aggNormRow a cn g1 b1)) O1 O2

end Cert.Spec

end
-- ==== Proof.KPay.lean ====
/-
  The kernels' arithmetic read at an index: each payload of the two kernel bodies, at row `r` of the block and feature
  `j`, is the row function of Proof/Spec.lean applied to row `r` of the loaded blocks.
-/
import proofs.«175304_j43980465111676_1_alg».proof.Proof.Gen.KernelIdeal.Skeleton
import proofs.«175304_j43980465111676_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-! ## The three contractions read at an index

Each operand index of a contraction is read axis by axis: a free axis carries the result index's coordinate, the
contracted axis the summation index. -/

theorem lhs_d0_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl
theorem lhs_d0_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_d0_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_d0_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- A 6400-row block times a 128 by 128 matrix, accumulated into the zero splat, read at row r and column j: the row times the column. -/
theorem matmul_d0_apply (x : FVec Ideal S6400x128 .bf16) (y : FVec Ideal S128x128 .bf16) (r : Fin 6400) (j : Fin 128) :
    matmul (F := Ideal) dot_S6400x128_S128x128_S6400x128_1_0_0_1_n_n none x y (constant (F := Ideal) S6400x128 .f32 0x00000000#32) (ix2 r j)
      = ∑ k : Fin 128, x (ix2 r k) * y (ix2 k j) := by
  simp only [matmul]
  rw [Ideal.matmul_constant_zero_apply,
    ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r j)
      ((ValueIdx.contrEquiv1 dot_S6400x128_S128x128_S6400x128_1_0_0_1_n_n 128 rfl rfl).symm k) = ix2 r k :=
    funext fun a => Fin.ext (by
      match a with
      | ⟨0, _⟩ => exact lhs_d0_0 _ _
      | ⟨1, _⟩ => exact (lhs_d0_1 _ _).trans hk)
  have er : dot_S6400x128_S128x128_S6400x128_1_0_0_1_n_n.rhsIdx (ix2 r j)
      ((ValueIdx.contrEquiv1 dot_S6400x128_S128x128_S6400x128_1_0_0_1_n_n 128 rfl rfl).symm k) = ix2 k j :=
    funext fun a => Fin.ext (by
      match a with
      | ⟨0, _⟩ => exact (rhs_d0_0 _ _).trans hk
      | ⟨1, _⟩ => exact rhs_d0_1 _ _)
  rw [el, er]

theorem lhs_d1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem lhs_d1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_d1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_d1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- A 2000-row block of 256 lanes times a 256 by 128 matrix, accumulated into the zero splat, read at row r and column j: the row times the column. -/
theorem matmul_d1_apply (x : FVec Ideal S2000x256 .bf16) (y : FVec Ideal S256x128 .bf16) (r : Fin 2000) (j : Fin 128) :
    matmul (F := Ideal) dot_S2000x256_S256x128_S2000x128_1_0_0_1_n_n none x y (constant (F := Ideal) S2000x128 .f32 0x00000000#32) (ix2 r j)
      = ∑ k : Fin 256, x (ix2 r k) * y (ix2 k j) := by
  simp only [matmul]
  rw [Ideal.matmul_constant_zero_apply,
    ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j)
      ((ValueIdx.contrEquiv1 dot_S2000x256_S256x128_S2000x128_1_0_0_1_n_n 256 rfl rfl).symm k) = ix2 r k :=
    funext fun a => Fin.ext (by
      match a with
      | ⟨0, _⟩ => exact lhs_d1_0 _ _
      | ⟨1, _⟩ => exact (lhs_d1_1 _ _).trans hk)
  have er : dot_S2000x256_S256x128_S2000x128_1_0_0_1_n_n.rhsIdx (ix2 r j)
      ((ValueIdx.contrEquiv1 dot_S2000x256_S256x128_S2000x128_1_0_0_1_n_n 256 rfl rfl).symm k) = ix2 k j :=
    funext fun a => Fin.ext (by
      match a with
      | ⟨0, _⟩ => exact (rhs_d1_0 _ _).trans hk
      | ⟨1, _⟩ => exact rhs_d1_1 _ _)
  rw [el, er]

theorem lhs_d2_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_d2_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_d2_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_d2_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000-row block of 128 lanes times a 128 by 128 matrix, accumulated into the zero splat, read at row r and column j: the row times the column. -/
theorem matmul_d2_apply (x : FVec Ideal S2000x128 .bf16) (y : FVec Ideal S128x128 .bf16) (r : Fin 2000) (j : Fin 128) :
    matmul (F := Ideal) dot_S2000x128_S128x128_S2000x128_1_0_0_1_n_n none x y (constant (F := Ideal) S2000x128 .f32 0x00000000#32) (ix2 r j)
      = ∑ k : Fin 128, x (ix2 r k) * y (ix2 k j) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j)
      ((ValueIdx.contrEquiv1 dot_S2000x128_S128x128_S2000x128_1_0_0_1_n_n 128 rfl rfl).symm k) = ix2 r k :=
    funext fun a => Fin.ext (by
      match a with
      | ⟨0, _⟩ => exact lhs_d2_0 _ _
      | ⟨1, _⟩ => exact (lhs_d2_1 _ _).trans hk)
  have er : dot_S2000x128_S128x128_S2000x128_1_0_0_1_n_n.rhsIdx (ix2 r j)
      ((ValueIdx.contrEquiv1 dot_S2000x128_S128x128_S2000x128_1_0_0_1_n_n 128 rfl rfl).symm k) = ix2 k j :=
    funext fun a => Fin.ext (by
      match a with
      | ⟨0, _⟩ => exact (rhs_d2_0 _ _).trans hk
      | ⟨1, _⟩ => exact rhs_d2_1 _ _)
  rw [el, er]

/-! ## Layout steps of a row statistic, read at an index -/

variable {α : Type}

/-- A vector of a entries cast to a column of a rows reads, at row i, the entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of a rows broadcast along b columns reads, at row i and any column, the column's entry at row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A sum along the 128 lanes of a block of 2000 rows reads, at row r, the sum of that row's entries. -/
theorem rowsum_apply (x : FVec Ideal S2000x128 .f32) (r : Fin 2000) :
    multiReduction (F := Ideal) .add [1] S2000 x 0x00000000#32 reduces_S2000x128_S2000 (.inl rfl) rfl (ix1 r)
      = ∑ k : Fin 128, x (ix2 r k) := by
  refine (Ideal.multiReduction_add_single x 0x00000000#32 reduces_S2000x128_S2000 (.inl rfl) rfl (ix1 r)).trans ?_
  refine Finset.sum_congr rfl fun k _ => congrArg x ?_
  funext c
  match c with
  | ⟨0, _⟩ => rfl
  | ⟨1, _⟩ => rfl

/-- Two blocks of 2000 rows laid side by side along the lanes, read at row r and lane l: the two rows side by side. -/
theorem concat_apply (a b : FVec Ideal S2000x128 .f32) (r : Fin 2000) (l : Fin 256) :
    concatenate S2000x256 1 [⟨S2000x128, a⟩, ⟨S2000x128, b⟩] concatenates_S2000x128_S2000x128_S2000x256_d1 (ix2 r l)
      = Spec.catRow (fun q : Fin 128 => a (ix2 r q)) (fun q : Fin 128 => b (ix2 r q)) l := by
  unfold Spec.catRow
  split
  · next h =>
    exact concatenate_pair_apply_left (1 : Fin S2000x256.rank) a b concatenates_S2000x128_S2000x128_S2000x256_d1
      (ix2 r l) rfl (ix2 r (⟨l.val, h⟩ : Fin 128)) (fun c => by
        match c with
        | ⟨0, _⟩ => rfl
        | ⟨1, _⟩ => rfl)
  · next h =>
    exact concatenate_pair_apply_right (1 : Fin S2000x256.rank) a b concatenates_S2000x128_S2000x128_S2000x256_d1
      (ix2 r l) rfl rfl (ix2 r (⟨l.val - 128, by have := l.isLt; omega⟩ : Fin 128)) (fun c hc => by
        match c with
        | ⟨0, _⟩ => rfl
        | ⟨1, _⟩ => exact absurd rfl hc)
      (by show (l.val - 128) + 128 = l.val; omega)

/-! ## The normalisation of a block's rows, as both kernel bodies write it -/

/-- The column of row means of a block of 2000 rows: the lane sum, cast to a column, divided by the float 128. -/
def colMean (x : FVec Ideal S2000x128 .f32) : FVec Ideal S2000x1 .f32 :=
  divf (shapeCast S2000x1 (multiReduction (F := Ideal) .add [1] S2000 x 0x00000000#32 reduces_S2000x128_S2000 (.inl rfl) rfl) shapeCasts_S2000_S2000x1)
    (broadcast S2000x1 (Scalar.ofBits (F := Ideal) .f32 0x43000000#32))

/-- At any row it is the mean of that row. -/
theorem colMean_apply (x : FVec Ideal S2000x128 .f32) (r : Fin 2000) (u : Fin 1) :
    colMean x (ix2 r u) = Spec.mean128 (fun q : Fin 128 => x (ix2 r q)) := by
  show Ideal.div (shapeCast S2000x1 (multiReduction (F := Ideal) .add [1] S2000 x 0x00000000#32 reduces_S2000x128_S2000 (.inl rfl) rfl)
    shapeCasts_S2000_S2000x1 (ix2 r u)) (Ideal.ofBits .f32 0x43000000#32) = _
  rw [shapeCast_a_a1_apply, rowsum_apply]
  rfl

/-- A block with each row's mean taken off. -/
def centred (x : FVec Ideal S2000x128 .f32) : FVec Ideal S2000x128 .f32 :=
  subf x (broadcastTo S2000x128 (colMean x) broadcasts_S2000x1_S2000x128)

theorem centred_apply (x : FVec Ideal S2000x128 .f32) (r : Fin 2000) (k : Fin 128) :
    centred x (ix2 r k) = x (ix2 r k) - Spec.mean128 (fun q : Fin 128 => x (ix2 r q)) := by
  show x (ix2 r k) - broadcastTo S2000x128 (colMean x) broadcasts_S2000x1_S2000x128 (ix2 r k) = _
  rw [broadcastTo_a1_ab_apply, colMean_apply]

/-- The column of the rows' scale factors: rsqrt of the mean squared deviation plus the constant. -/
def colScale (x : FVec Ideal S2000x128 .f32) : FVec Ideal S2000x1 .f32 :=
  rsqrt (addf (colMean (mulf (centred x) (centred x))) (broadcast S2000x1 (Scalar.ofBits (F := Ideal) .f32 0x3727C5AC#32)))

theorem colScale_apply (x : FVec Ideal S2000x128 .f32) (r : Fin 2000) (u : Fin 1) :
    colScale x (ix2 r u)
      = Ideal.rsqrt (Spec.mean128 (fun q : Fin 128 => (x (ix2 r q) - Spec.mean128 (fun p : Fin 128 => x (ix2 r p)))
          * (x (ix2 r q) - Spec.mean128 (fun p : Fin 128 => x (ix2 r p)))) + Ideal.ofBits .f32 0x3727C5AC#32) := by
  show Ideal.rsqrt (colMean (mulf (centred x) (centred x)) (ix2 r u) + Ideal.ofBits .f32 0x3727C5AC#32) = _
  rw [colMean_apply]
  refine congrArg (fun t => Ideal.rsqrt (Spec.mean128 t + Ideal.ofBits .f32 0x3727C5AC#32)) (funext fun q => ?_)
  show centred x (ix2 r q) * centred x (ix2 r q) = _
  rw [centred_apply]

/-- Layer normalisation of a block's rows with a gain row and a bias row, operation by operation as the kernel bodies write it. -/
def lnVec (x : FVec Ideal S2000x128 .f32) (g b : Vec Ideal S1x128 .f32) : FVec Ideal S2000x128 .f32 :=
  addf (mulf (mulf (centred x) (broadcastTo S2000x128 (colScale x) broadcasts_S2000x1_S2000x128))
      (broadcastTo S2000x128 (shapeCast S1x128 g shapeCasts_S1x128_S1x128) broadcasts_S1x128_S2000x128))
    (broadcastTo S2000x128 (shapeCast S1x128 b shapeCasts_S1x128_S1x128) broadcasts_S1x128_S2000x128)

/-- At row r it is the row function of the specification on that row. -/
theorem lnVec_apply (x : FVec Ideal S2000x128 .f32) (g b : Vec Ideal S1x128 .f32) (r : Fin 2000) (k : Fin 128) :
    lnVec x g b (ix2 r k)
      = Spec.lnRow (fun q : Fin 128 => x (ix2 r q)) (fun q => g (ix2 (0 : Fin 1) q)) (fun q => b (ix2 (0 : Fin 1) q)) k := by
  show centred x (ix2 r k) * broadcastTo S2000x128 (colScale x) broadcasts_S2000x1_S2000x128 (ix2 r k)
      * broadcastTo S2000x128 (shapeCast S1x128 g shapeCasts_S1x128_S1x128) broadcasts_S1x128_S2000x128 (ix2 r k)
    + broadcastTo S2000x128 (shapeCast S1x128 b shapeCasts_S1x128_S1x128) broadcasts_S1x128_S2000x128 (ix2 r k) = _
  rw [centred_apply, broadcastTo_a1_ab_apply, colScale_apply, broadcastTo_1b_ab_apply, broadcastTo_1b_ab_apply,
    shapeCast_self, shapeCast_self]
  rfl

/-! ## The message kernel's body -/

theorem k0_pay1_apply (v0 : Vec Ideal S6400x128 .f32) (v3 v5 : Vec Ideal S128x128 .f32) (r : Fin 6400) (j : Fin 128) :
    k0_pay1 (F := Ideal) v0 v3 v5 (ix2 r j)
      = Spec.mlpRow (fun l : Fin 128 => v0 (ix2 r l)) (fun l k => v3 (ix2 l k)) (fun k j => v5 (ix2 k j)) j := by
  unfold k0_pay1
  refine (matmul_d0_apply _ _ r j).trans ?_
  unfold Spec.mlpRow Spec.relu
  refine Finset.sum_congr rfl fun k _ => ?_
  show max (matmul (F := Ideal) dot_S6400x128_S128x128_S6400x128_1_0_0_1_n_n none
      (truncf .bf16 (shapeCast S6400x128 v0 shapeCasts_S6400x128_S6400x128) bitsLt_bf16_f32) (truncf .bf16 v3 bitsLt_bf16_f32)
      (constant (F := Ideal) S6400x128 .f32 0x00000000#32) (ix2 r k)) (Ideal.ofBits .f32 0x00000000#32) * v5 (ix2 k j) = _
  rw [matmul_d0_apply, shapeCast_self]
  rfl

/-! ## The final kernel's body -/

/-- The mean message block: the summed messages divided, row by row, by the in-degree column clipped below at the float one. -/
def meanVec (a : Vec Ideal S2000x128 .f32) (cn : Vec Ideal S2000x1 .f32) : FVec Ideal S2000x128 .f32 :=
  divf (shapeCast S2000x128 a shapeCasts_S2000x128_S2000x128)
    (broadcastTo S2000x128 (maximumf (shapeCast S2000x1 cn shapeCasts_S2000x1_S2000x1)
      (broadcast S2000x1 (Scalar.ofBits (F := Ideal) .f32 0x3F800000#32))) broadcasts_S2000x1_S2000x128)

theorem meanVec_apply (a : Vec Ideal S2000x128 .f32) (cn : Vec Ideal S2000x1 .f32) (r : Fin 2000) (k : Fin 128) :
    meanVec a cn (ix2 r k) = Spec.meanRow (fun q : Fin 128 => a (ix2 r q)) (cn (ix2 r (0 : Fin 1))) k := by
  show Ideal.div (shapeCast S2000x128 a shapeCasts_S2000x128_S2000x128 (ix2 r k))
    (broadcastTo S2000x128 (maximumf (shapeCast S2000x1 cn shapeCasts_S2000x1_S2000x1)
      (broadcast S2000x1 (Scalar.ofBits (F := Ideal) .f32 0x3F800000#32))) broadcasts_S2000x1_S2000x128 (ix2 r k)) = _
  rw [broadcastTo_a1_ab_apply, shapeCast_self]
  show Ideal.div (a (ix2 r k)) (max (shapeCast S2000x1 cn shapeCasts_S2000x1_S2000x1 (ix2 r (0 : Fin 1))) (Ideal.ofBits .f32 0x3F800000#32)) = _
  rw [shapeCast_self]
  rfl

/-- The normalised mean message block is the normalisation of the mean message block. -/
theorem k1_pay2_eq (v1 : Vec Ideal S2000x128 .f32) (v3 : Vec Ideal S2000x1 .f32) (v27 v31 : Vec Ideal S1x128 .f32) :
    k1_pay2 (F := Ideal) v1 v3 v27 v31 = lnVec (meanVec v1 v3) v27 v31 := rfl

theorem k1_pay2_apply (v1 : Vec Ideal S2000x128 .f32) (v3 : Vec Ideal S2000x1 .f32) (v27 v31 : Vec Ideal S1x128 .f32)
    (r : Fin 2000) (k : Fin 128) :
    k1_pay2 (F := Ideal) v1 v3 v27 v31 (ix2 r k)
      = Spec.aggNormRow (fun q : Fin 128 => v1 (ix2 r q)) (v3 (ix2 r (0 : Fin 1)))
          (fun q => v27 (ix2 (0 : Fin 1) q)) (fun q => v31 (ix2 (0 : Fin 1) q)) k := by
  rw [k1_pay2_eq, lnVec_apply]
  unfold Spec.aggNormRow
  exact congrArg (fun t => Spec.lnRow t (fun q => v27 (ix2 (0 : Fin 1) q)) (fun q => v31 (ix2 (0 : Fin 1) q)) k)
    (funext fun q => meanVec_apply v1 v3 r q)

theorem k1_pay3_apply (v0 v1 : Vec Ideal S2000x128 .f32) (v3 : Vec Ideal S2000x1 .f32) (v27 v31 v36 : Vec Ideal S1x128 .f32)
    (r : Fin 2000) (k : Fin 128) :
    k1_pay3 (F := Ideal) v0 v1 v3 v27 v31 v36 (ix2 r k)
      = Spec.mixRow (fun q : Fin 128 => v0 (ix2 r q))
          (Spec.aggNormRow (fun q : Fin 128 => v1 (ix2 r q)) (v3 (ix2 r (0 : Fin 1)))
            (fun q => v27 (ix2 (0 : Fin 1) q)) (fun q => v31 (ix2 (0 : Fin 1) q)))
          (fun q => v36 (ix2 (0 : Fin 1) q)) k := by
  show v0 (ix2 r k) + (v0 (ix2 r k) - k1_pay2 (F := Ideal) v1 v3 v27 v31 (ix2 r k))
    * broadcastTo S2000x128 (shapeCast S1x128 v36 shapeCasts_S1x128_S1x128) broadcasts_S1x128_S2000x128 (ix2 r k) = _
  rw [k1_pay2_apply, broadcastTo_1b_ab_apply, shapeCast_self]
  rfl

/-- The output perceptron on a block of 2000 rows of 256 lanes, read at row r and column j: the row function of the
    specification on that row. -/
theorem mlp1_apply (c : FVec Ideal S2000x256 .f32) (A : Vec Ideal S256x128 .f32) (B : Vec Ideal S128x128 .f32)
    (r : Fin 2000) (j : Fin 128) :
    matmul (F := Ideal) dot_S2000x128_S128x128_S2000x128_1_0_0_1_n_n none
      (truncf .bf16 (maximumf (matmul (F := Ideal) dot_S2000x256_S256x128_S2000x128_1_0_0_1_n_n none
          (truncf .bf16 c bitsLt_bf16_f32) (truncf .bf16 A bitsLt_bf16_f32) (constant (F := Ideal) S2000x128 .f32 0x00000000#32))
        (broadcast S2000x128 (Scalar.ofBits (F := Ideal) .f32 0x00000000#32))) bitsLt_bf16_f32)
      (truncf .bf16 B bitsLt_bf16_f32) (constant (F := Ideal) S2000x128 .f32 0x00000000#32) (ix2 r j)
      = Spec.mlpRow (fun l : Fin 256 => c (ix2 r l)) (fun l k => A (ix2 l k)) (fun k j => B (ix2 k j)) j := by
  refine (matmul_d2_apply _ _ r j).trans ?_
  unfold Spec.mlpRow Spec.relu
  refine Finset.sum_congr rfl fun k _ => ?_
  show max (matmul (F := Ideal) dot_S2000x256_S256x128_S2000x128_1_0_0_1_n_n none
      (truncf .bf16 c bitsLt_bf16_f32) (truncf .bf16 A bitsLt_bf16_f32)
      (constant (F := Ideal) S2000x128 .f32 0x00000000#32) (ix2 r k)) (Ideal.ofBits .f32 0x00000000#32) * B (ix2 k j) = _
  rw [matmul_d1_apply]
  rfl

/-- The final kernel's stored block is the output perceptron on the normalised mixed block laid beside the normalised mean
    message block. -/
theorem k1_pay1_eq (v34 v40 : FVec Ideal S2000x128 .f32) (v59 v63 : Vec Ideal S1x128 .f32) (v69 : Vec Ideal S256x128 .f32)
    (v74 : Vec Ideal S128x128 .f32) :
    k1_pay1 (F := Ideal) v34 v40 v59 v63 v69 v74
      = matmul (F := Ideal) dot_S2000x128_S128x128_S2000x128_1_0_0_1_n_n none
          (truncf .bf16 (maximumf (matmul (F := Ideal) dot_S2000x256_S256x128_S2000x128_1_0_0_1_n_n none
              (truncf .bf16 (concatenate S2000x256 1 [⟨S2000x128, lnVec v40 v59 v63⟩, ⟨S2000x128, v34⟩]
                concatenates_S2000x128_S2000x128_S2000x256_d1) bitsLt_bf16_f32)
              (truncf .bf16 v69 bitsLt_bf16_f32) (constant (F := Ideal) S2000x128 .f32 0x00000000#32))
            (broadcast S2000x128 (Scalar.ofBits (F := Ideal) .f32 0x00000000#32))) bitsLt_bf16_f32)
          (truncf .bf16 v74 bitsLt_bf16_f32) (constant (F := Ideal) S2000x128 .f32 0x00000000#32) := rfl

theorem k1_pay1_apply (v34 v40 : FVec Ideal S2000x128 .f32) (v59 v63 : Vec Ideal S1x128 .f32) (v69 : Vec Ideal S256x128 .f32)
    (v74 : Vec Ideal S128x128 .f32) (r : Fin 2000) (j : Fin 128) :
    k1_pay1 (F := Ideal) v34 v40 v59 v63 v69 v74 (ix2 r j)
      = Spec.mlpRow (Spec.catRow
          (Spec.lnRow (fun q : Fin 128 => v40 (ix2 r q)) (fun q => v59 (ix2 (0 : Fin 1) q)) (fun q => v63 (ix2 (0 : Fin 1) q)))
          (fun q : Fin 128 => v34 (ix2 r q)))
          (fun l k => v69 (ix2 l k)) (fun k j => v74 (ix2 k j)) j := by
  rw [k1_pay1_eq]
  refine (mlp1_apply _ v69 v74 r j).trans ?_
  refine congrArg (fun t => Spec.mlpRow t (fun l k => v69 (ix2 l k)) (fun k j => v74 (ix2 k j)) j) (funext fun l => ?_)
  rw [concat_apply]
  exact congrArg (fun t => Spec.catRow t (fun q : Fin 128 => v34 (ix2 r q)) l) (funext fun q => lnVec_apply v40 v59 v63 r q)

end Cert.KPay

end
-- ==== Proof.SpecArr.lean ====
/-
  The row functions of Proof/Spec.lean laid over whole arrays: entry (i, j) of an array is feature j of the row
  function applied to row i of its operands. The two programs' result arrays are both shown to be `outArr`.
-/
import proofs.«175304_j43980465111676_1_alg».proof.Proof.Spec
import Idealize.ShloMosaic.Lib.ValueIdx

noncomputable section

namespace Cert.Spec

open Idealize.ShloMosaic Idealize.ShloMosaic.ValueIdx

/-- The edge messages: row e is the edge perceptron of the gathered source row e. -/
def msgArr (xg : (⟨2, ![640000, 128]⟩ : Shape).Idx → EReal) (W1 W2 : (⟨2, ![128, 128]⟩ : Shape).Idx → EReal) :
    (⟨2, ![640000, 128]⟩ : Shape).Idx → EReal :=
  fun i => mlpRow (fun l : Fin 128 => xg (ix2 (i 0 : Fin 640000) l)) (fun l k => W1 (ix2 l k)) (fun k j => W2 (ix2 k j)) (i 1 : Fin 128)

/-- The result: row n is the node's output row, from row n of the features and of the summed messages and the node's
    in-degree. -/
def outArr (x agg : (⟨2, ![40000, 128]⟩ : Shape).Idx → EReal) (cnt : (⟨1, ![40000]⟩ : Shape).Idx → EReal)
    (g1 b1 g2 b2 w : (⟨1, ![128]⟩ : Shape).Idx → EReal) (O1 : (⟨2, ![256, 128]⟩ : Shape).Idx → EReal)
    (O2 : (⟨2, ![128, 128]⟩ : Shape).Idx → EReal) : (⟨2, ![40000, 128]⟩ : Shape).Idx → EReal :=
  fun i => outRow (fun q : Fin 128 => x (ix2 (i 0 : Fin 40000) q)) (fun q : Fin 128 => agg (ix2 (i 0 : Fin 40000) q)) (cnt (ix1 (i 0 : Fin 40000)))
    (fun q : Fin 128 => g1 (ix1 q)) (fun q : Fin 128 => b1 (ix1 q)) (fun q : Fin 128 => g2 (ix1 q)) (fun q : Fin 128 => b2 (ix1 q)) (fun q : Fin 128 => w (ix1 q))
    (fun l k => O1 (ix2 l k)) (fun k j => O2 (ix2 k j)) (i 1 : Fin 128)

/-- The same result from the arrays as the second kernel region finds them: the in-degrees a column, the feature
    vectors one-row matrices. -/
def outArrK (x agg : (⟨2, ![40000, 128]⟩ : Shape).Idx → EReal) (cnt : (⟨2, ![40000, 1]⟩ : Shape).Idx → EReal)
    (g1 b1 g2 b2 w : (⟨2, ![1, 128]⟩ : Shape).Idx → EReal) (O1 : (⟨2, ![256, 128]⟩ : Shape).Idx → EReal)
    (O2 : (⟨2, ![128, 128]⟩ : Shape).Idx → EReal) : (⟨2, ![40000, 128]⟩ : Shape).Idx → EReal :=
  fun i => outRow (fun q : Fin 128 => x (ix2 (i 0 : Fin 40000) q)) (fun q : Fin 128 => agg (ix2 (i 0 : Fin 40000) q)) (cnt (ix2 (i 0 : Fin 40000) (0 : Fin 1)))
    (fun q : Fin 128 => g1 (ix2 (0 : Fin 1) q)) (fun q : Fin 128 => b1 (ix2 (0 : Fin 1) q)) (fun q : Fin 128 => g2 (ix2 (0 : Fin 1) q)) (fun q : Fin 128 => b2 (ix2 (0 : Fin 1) q)) (fun q : Fin 128 => w (ix2 (0 : Fin 1) q))
    (fun l k => O1 (ix2 l k)) (fun k j => O2 (ix2 k j)) (i 1 : Fin 128)

end Cert.Spec

end
-- ==== Proof.Reg0.lean ====
/-
  The first kernel region's result array. The grid has 100 points; point t stages rows 6400·t … 6400·t + 6399 of the
  gathered source rows and the two weight matrices whole, and writes back rows 6400·t … of the messages. What it writes
  is the edge perceptron of the rows it staged, so the blocks written back are the blocks of ONE array, `msgArr` of the
  region's input arrays, and they tile the result array: it ends holding `msgArr`.
-/
import proofs.«175304_j43980465111676_1_alg».proof.Proof.Gen.KernelIdeal.Frame
import proofs.«175304_j43980465111676_1_alg».proof.Proof.KPay
import proofs.«175304_j43980465111676_1_alg».proof.Proof.SpecArr
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of point t's block of the gathered rows is row 6400·t + r of the array. -/
theorem blk_rows (c : Dev nD) (t : Fin cfg0.N) (r : Fin 6400) (l : Fin 128) (i : Fin 640000) (hi : i.val = 6400 * t.val + r.val) :
    (iblk0 V c 0 t : Vec Ideal S6400x128 .f32) (ix2 r l) = (V c main_v10 : S640000x128.Idx → EReal) (ix2 i l) := by
  obtain ⟨e0, e1, -⟩ := idx_facts t
  unfold iblk0
  rw [View.read_apply]
  show V c main_v10 _ = V c main_v10 _
  congr 1
  funext a
  apply Fin.ext
  match a with
  | ⟨0, _⟩ => show win0_0.index t 0 * 6400 + 1 * r.val = i.val; rw [e0, hi]; omega
  | ⟨1, _⟩ => show win0_0.index t 1 * 128 + 1 * l.val = l.val; rw [e1]; omega

/-- The first weight matrix is staged whole at every point. -/
theorem blk_w1 (c : Dev nD) (t : Fin cfg0.N) (l k : Fin 128) :
    (iblk0 V c 1 t : Vec Ideal S128x128 .f32) (ix2 l k) = (V c main_arg7 : S128x128.Idx → EReal) (ix2 l k) := by
  obtain ⟨-, -, e0, e1, -⟩ := idx_facts t
  unfold iblk0
  rw [View.read_apply]
  show V c main_arg7 _ = V c main_arg7 _
  congr 1
  funext a
  apply Fin.ext
  match a with
  | ⟨0, _⟩ => show win0_1.index t 0 * 128 + 1 * l.val = l.val; rw [e0]; omega
  | ⟨1, _⟩ => show win0_1.index t 1 * 128 + 1 * k.val = k.val; rw [e1]; omega

/-- The second weight matrix is staged whole at every point. -/
theorem blk_w2 (c : Dev nD) (t : Fin cfg0.N) (l k : Fin 128) :
    (iblk0 V c 2 t : Vec Ideal S128x128 .f32) (ix2 l k) = (V c main_arg8 : S128x128.Idx → EReal) (ix2 l k) := by
  obtain ⟨-, -, -, -, e0, e1, -⟩ := idx_facts t
  unfold iblk0
  rw [View.read_apply]
  show V c main_arg8 _ = V c main_arg8 _
  congr 1
  funext a
  apply Fin.ext
  match a with
  | ⟨0, _⟩ => show win0_2.index t 0 * 128 + 1 * l.val = l.val; rw [e0]; omega
  | ⟨1, _⟩ => show win0_2.index t 1 * 128 + 1 * k.val = k.val; rw [e1]; omega

/-- The messages as one array of the region's input arrays. -/
abbrev msgs (c : Dev nD) : S640000x128.Idx → EReal :=
  Spec.msgArr (V c main_v10) (V c main_arg7) (V c main_arg8)

/-- What point t writes back is block t of the messages. -/
theorem flushed_eq (c : Dev nD) (t : Fin cfg0.N) :
    (dat0 V c).flushed 3 t = ((cfg0.win 3).blk t).view.read (Elt Ideal) (msgs V c) := by
  obtain ⟨-, -, -, -, -, -, e0, e1⟩ := idx_facts t
  show (cfg0.win 3).cut (grid0.coords t) ((dat0 V c).after 3 t) = _
  rw [after0_3]
  unfold out0_3
  rw [View.canon_unit_zero hz]
  simp only [View.ld_unit_zero (S := S6400x128) hz, View.ld_unit_zero (S := S128x128) hz]
  funext j
  obtain ⟨r, q, rfl⟩ : ∃ (r : Fin 6400) (q : Fin 128), j = ix2 r q := ⟨j 0, j 1, eq_ix2 j⟩
  have hlt : 6400 * t.val + r.val < 640000 := by have := t.isLt; have := r.isLt; have : cfg0.N = 100 := N_0; omega
  show k0_pay1 (F := Ideal) (iblk0 V c 0 t) (iblk0 V c 1 t) (iblk0 V c 2 t) (ix2 r q) = msgs V c (((cfg0.win 3).blk t).view.emb (ix2 r q))
  have hemb : ((cfg0.win 3).blk t).view.emb (ix2 r q) = (ix2 (⟨6400 * t.val + r.val, hlt⟩ : Fin 640000) q : S640000x128.Idx) := by
    funext a
    apply Fin.ext
    match a with
    | ⟨0, _⟩ => show win0_3.index t 0 * 6400 + 1 * r.val = 6400 * t.val + r.val; rw [e0]; omega
    | ⟨1, _⟩ => show win0_3.index t 1 * 128 + 1 * q.val = q.val; rw [e1]; omega
  rw [hemb, KPay.k0_pay1_apply]
  show _ = Spec.mlpRow _ _ _ q
  congr 1
  · funext l; exact blk_rows V c t r l ⟨6400 * t.val + r.val, hlt⟩ rfl
  · funext l k; exact blk_w1 V c t l k
  · funext l k; exact blk_w2 V c t l k

/-- An index of the array is in point t's block iff each coordinate is in the block's range on its axis. -/
theorem mem_blk (t : Fin cfg0.N) (i : S640000x128.Idx) :
    i ∈ ((cfg0.win 3).blk t).view.set ↔ ∀ a : Fin 2, win0_3.index t a * S6400x128.size a ≤ (i a).val ∧ (i a).val < win0_3.index t a * S6400x128.size a + S6400x128.size a := by
  show i ∈ ((View.whole main_v11).slice (win0_3.rect t)).set ↔ _
  rw [View.set_slice_whole, Rect.mem_set_unit]
  exact Iff.rfl

/-- Every row of the result array is in the block of the point its row number divided by 6400 names. -/
theorem cover (i : S640000x128.Idx) : ∃ t : Fin cfg0.N, (cfg0.win 3).flush t = true ∧ i ∈ ((cfg0.win 3).blk t).view.set := by
  have hi0 : (i 0).val < 640000 := (i 0).isLt
  have hi1 : (i 1).val < 128 := (i 1).isLt
  have hN : cfg0.N = 100 := N_0
  let t : Fin cfg0.N := ⟨(i 0).val / 6400, by rw [hN]; omega⟩
  obtain ⟨-, -, -, -, -, -, e0, e1⟩ := idx_facts t
  refine ⟨t, flush0_3 t, ?_⟩
  rw [mem_blk]
  intro a
  have ht : t.val = (i 0).val / 6400 := rfl
  match a with
  | ⟨0, _⟩ => show win0_3.index t 0 * 6400 ≤ (i 0).val ∧ (i 0).val < win0_3.index t 0 * 6400 + 6400; rw [e0, ht]; omega
  | ⟨1, _⟩ => show win0_3.index t 1 * 128 ≤ (i 1).val ∧ (i 1).val < win0_3.index t 1 * 128 + 128; rw [e1]; omega

/-- The first region's result array after the region: the messages. -/
theorem final (c : Dev nD) : (dat0 V c).arrAt 3 cfg0.N = msgs V c :=
  (dat0 V c).arrAt_eq_of_cover 3 (msgs V c) (fun t _ => flushed_eq V c t) cover

end Cert.KernelIdeal.Reg0

end
-- ==== Proof.Reg1.lean ====
/-
  The second kernel region's result array. The grid has 20 points; point t stages rows 2000·t … 2000·t + 1999 of the
  node features, of the summed messages and of the in-degree column, and the five feature vectors and the two weight
  matrices whole, and writes back rows 2000·t … of the result. A row of what it writes is the node's output row
  (Proof/Spec.lean `outRow`) of the same row of what it staged, so the blocks written back are the blocks of ONE array,
  `outArrK` of the region's input arrays, and they tile the result array: it ends holding `outArrK`.
-/
import proofs.«175304_j43980465111676_1_alg».proof.Proof.Gen.KernelIdeal.Frame
import proofs.«175304_j43980465111676_1_alg».proof.Proof.KPay
import proofs.«175304_j43980465111676_1_alg».proof.Proof.SpecArr
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-- The body's three payloads composed, at row r and feature q of the block: the node's output row of row r of the
    loaded blocks. -/
theorem body_apply (x0 x1 : Vec Ideal S2000x128 .f32) (x2 : Vec Ideal S2000x1 .f32) (x3 x4 x5 x6 x7 : Vec Ideal S1x128 .f32)
    (x8 : Vec Ideal S256x128 .f32) (x9 : Vec Ideal S128x128 .f32) (r : Fin 2000) (q : Fin 128) :
    k1_pay1 (F := Ideal) (k1_pay2 x1 x2 x3 x4) (k1_pay3 x0 x1 x2 x3 x4 x7) x5 x6 x8 x9 (ix2 r q)
      = Spec.outRow (fun q : Fin 128 => x0 (ix2 r q)) (fun q : Fin 128 => x1 (ix2 r q)) (x2 (ix2 r (0 : Fin 1)))
          (fun q : Fin 128 => x3 (ix2 (0 : Fin 1) q)) (fun q : Fin 128 => x4 (ix2 (0 : Fin 1) q))
          (fun q : Fin 128 => x5 (ix2 (0 : Fin 1) q)) (fun q : Fin 128 => x6 (ix2 (0 : Fin 1) q))
          (fun q : Fin 128 => x7 (ix2 (0 : Fin 1) q)) (fun l k => x8 (ix2 l k)) (fun k j => x9 (ix2 k j)) q := by
  rw [KPay.k1_pay1_apply]
  simp only [KPay.k1_pay3_apply, KPay.k1_pay2_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows move with the point, the others stay. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0) :=
  (by decide +kernel : ∀ t : Fin grid1.N, _)

/-- Row r of point t's block of the node features is row 2000·t + r of the array. -/
theorem blk_x (c : Dev nD) (t : Fin cfg1.N) (r : Fin 2000) (l : Fin 128) (i : Fin 40000) (hi : i.val = 2000 * t.val + r.val) :
    (iblk1 V c 0 t : Vec Ideal S2000x128 .f32) (ix2 r l) = (V c main_arg0 : S40000x128.Idx → EReal) (ix2 i l) := by
  obtain ⟨e0, e1⟩ := (idx_facts t).1
  unfold iblk1
  rw [View.read_apply]
  show V c main_arg0 _ = V c main_arg0 _
  congr 1
  funext a
  apply Fin.ext
  match a with
  | ⟨0, _⟩ => show win1_0.index t 0 * 2000 + 1 * r.val = i.val; rw [e0, hi]; omega
  | ⟨1, _⟩ => show win1_0.index t 1 * 128 + 1 * l.val = l.val; rw [e1]; omega

/-- Row r of point t's block of the summed messages is row 2000·t + r of the array. -/
theorem blk_agg (c : Dev nD) (t : Fin cfg1.N) (r : Fin 2000) (l : Fin 128) (i : Fin 40000) (hi : i.val = 2000 * t.val + r.val) :
    (iblk1 V c 1 t : Vec Ideal S2000x128 .f32) (ix2 r l) = (V c main_v14 : S40000x128.Idx → EReal) (ix2 i l) := by
  obtain ⟨e0, e1⟩ := (idx_facts t).2.1
  unfold iblk1
  rw [View.read_apply]
  show V c main_v14 _ = V c main_v14 _
  congr 1
  funext a
  apply Fin.ext
  match a with
  | ⟨0, _⟩ => show win1_1.index t 0 * 2000 + 1 * r.val = i.val; rw [e0, hi]; omega
  | ⟨1, _⟩ => show win1_1.index t 1 * 128 + 1 * l.val = l.val; rw [e1]; omega

/-- Row r of point t's block of the in-degree column is row 2000·t + r of the column. -/
theorem blk_cnt (c : Dev nD) (t : Fin cfg1.N) (r : Fin 2000) (l : Fin 1) (i : Fin 40000) (hi : i.val = 2000 * t.val + r.val) :
    (iblk1 V c 2 t : Vec Ideal S2000x1 .f32) (ix2 r l) = (V c main_v19 : S40000x1.Idx → EReal) (ix2 i l) := by
  obtain ⟨e0, e1⟩ := (idx_facts t).2.2.1
  unfold iblk1
  rw [View.read_apply]
  show V c main_v19 _ = V c main_v19 _
  congr 1
  funext a
  apply Fin.ext
  match a with
  | ⟨0, _⟩ => show win1_2.index t 0 * 2000 + 1 * r.val = i.val; rw [e0, hi]; omega
  | ⟨1, _⟩ => show win1_2.index t 1 * 1 + 1 * l.val = l.val; rw [e1]; omega

/-- The first gain is staged whole at every point. -/
theorem blk_g1 (c : Dev nD) (t : Fin cfg1.N) (r : Fin 1) (l : Fin 128) :
    (iblk1 V c 3 t : Vec Ideal S1x128 .f32) (ix2 r l) = (V c main_v20 : S1x128.Idx → EReal) (ix2 r l) := by
  obtain ⟨e0, e1⟩ := (idx_facts t).2.2.2.1
  unfold iblk1
  rw [View.read_apply]
  show V c main_v20 _ = V c main_v20 _
  congr 1
  funext a
  apply Fin.ext
  match a with
  | ⟨0, _⟩ => show win1_3.index t 0 * 1 + 1 * r.val = r.val; rw [e0]; omega
  | ⟨1, _⟩ => show win1_3.index t 1 * 128 + 1 * l.val = l.val; rw [e1]; omega

/-- The first bias is staged whole at every point. -/
theorem blk_b1 (c : Dev nD) (t : Fin cfg1.N) (r : Fin 1) (l : Fin 128) :
    (iblk1 V c 4 t : Vec Ideal S1x128 .f32) (ix2 r l) = (V c main_v21 : S1x128.Idx → EReal) (ix2 r l) := by
  obtain ⟨e0, e1⟩ := (idx_facts t).2.2.2.2.1
  unfold iblk1
  rw [View.read_apply]
  show V c main_v21 _ = V c main_v21 _
  congr 1
  funext a
  apply Fin.ext
  match a with
  | ⟨0, _⟩ => show win1_4.index t 0 * 1 + 1 * r.val = r.val; rw [e0]; omega
  | ⟨1, _⟩ => show win1_4.index t 1 * 128 + 1 * l.val = l.val; rw [e1]; omega

/-- The second gain is staged whole at every point. -/
theorem blk_g2 (c : Dev nD) (t : Fin cfg1.N) (r : Fin 1) (l : Fin 128) :
    (iblk1 V c 5 t : Vec Ideal S1x128 .f32) (ix2 r l) = (V c main_v22 : S1x128.Idx → EReal) (ix2 r l) := by
  obtain ⟨e0, e1⟩ := (idx_facts t).2.2.2.2.2.1
  unfold iblk1
  rw [View.read_apply]
  show V c main_v22 _ = V c main_v22 _
  congr 1
  funext a
  apply Fin.ext
  match a with
  | ⟨0, _⟩ => show win1_5.index t 0 * 1 + 1 * r.val = r.val; rw [e0]; omega
  | ⟨1, _⟩ => show win1_5.index t 1 * 128 + 1 * l.val = l.val; rw [e1]; omega

/-- The second bias is staged whole at every point. -/
theorem blk_b2 (c : Dev nD) (t : Fin cfg1.N) (r : Fin 1) (l : Fin 128) :
    (iblk1 V c 6 t : Vec Ideal S1x128 .f32) (ix2 r l) = (V c main_v23 : S1x128.Idx → EReal) (ix2 r l) := by
  obtain ⟨e0, e1⟩ := (idx_facts t).2.2.2.2.2.2.1
  unfold iblk1
  rw [View.read_apply]
  show V c main_v23 _ = V c main_v23 _
  congr 1
  funext a
  apply Fin.ext
  match a with
  | ⟨0, _⟩ => show win1_6.index t 0 * 1 + 1 * r.val = r.val; rw [e0]; omega
  | ⟨1, _⟩ => show win1_6.index t 1 * 128 + 1 * l.val = l.val; rw [e1]; omega

/-- The mixing weight is staged whole at every point. -/
theorem blk_w (c : Dev nD) (t : Fin cfg1.N) (r : Fin 1) (l : Fin 128) :
    (iblk1 V c 7 t : Vec Ideal S1x128 .f32) (ix2 r l) = (V c main_v24 : S1x128.Idx → EReal) (ix2 r l) := by
  obtain ⟨e0, e1⟩ := (idx_facts t).2.2.2.2.2.2.2.1
  unfold iblk1
  rw [View.read_apply]
  show V c main_v24 _ = V c main_v24 _
  congr 1
  funext a
  apply Fin.ext
  match a with
  | ⟨0, _⟩ => show win1_7.index t 0 * 1 + 1 * r.val = r.val; rw [e0]; omega
  | ⟨1, _⟩ => show win1_7.index t 1 * 128 + 1 * l.val = l.val; rw [e1]; omega

/-- The first output weight matrix is staged whole at every point. -/
theorem blk_o1 (c : Dev nD) (t : Fin cfg1.N) (r : Fin 256) (l : Fin 128) :
    (iblk1 V c 8 t : Vec Ideal S256x128 .f32) (ix2 r l) = (V c main_arg9 : S256x128.Idx → EReal) (ix2 r l) := by
  obtain ⟨e0, e1⟩ := (idx_facts t).2.2.2.2.2.2.2.2.1
  unfold iblk1
  rw [View.read_apply]
  show V c main_arg9 _ = V c main_arg9 _
  congr 1
  funext a
  apply Fin.ext
  match a with
  | ⟨0, _⟩ => show win1_8.index t 0 * 256 + 1 * r.val = r.val; rw [e0]; omega
  | ⟨1, _⟩ => show win1_8.index t 1 * 128 + 1 * l.val = l.val; rw [e1]; omega

/-- The second output weight matrix is staged whole at every point. -/
theorem blk_o2 (c : Dev nD) (t : Fin cfg1.N) (r : Fin 128) (l : Fin 128) :
    (iblk1 V c 9 t : Vec Ideal S128x128 .f32) (ix2 r l) = (V c main_arg10 : S128x128.Idx → EReal) (ix2 r l) := by
  obtain ⟨e0, e1⟩ := (idx_facts t).2.2.2.2.2.2.2.2.2.1
  unfold iblk1
  rw [View.read_apply]
  show V c main_arg10 _ = V c main_arg10 _
  congr 1
  funext a
  apply Fin.ext
  match a with
  | ⟨0, _⟩ => show win1_9.index t 0 * 128 + 1 * r.val = r.val; rw [e0]; omega
  | ⟨1, _⟩ => show win1_9.index t 1 * 128 + 1 * l.val = l.val; rw [e1]; omega

/-- The result as one array of the region's input arrays. -/
abbrev result (c : Dev nD) : S40000x128.Idx → EReal :=
  Spec.outArrK (V c main_arg0) (V c main_v14) (V c main_v19) (V c main_v20) (V c main_v21) (V c main_v22) (V c main_v23) (V c main_v24) (V c main_arg9) (V c main_arg10)

/-- What point t writes back is block t of the result. -/
theorem flushed_eq (c : Dev nD) (t : Fin cfg1.N) :
    (dat1 V c).flushed 10 t = ((cfg1.win 10).blk t).view.read (Elt Ideal) (result V c) := by
  obtain ⟨e0, e1⟩ := (idx_facts t).2.2.2.2.2.2.2.2.2.2
  show (cfg1.win 10).cut (grid1.coords t) ((dat1 V c).after 10 t) = _
  rw [after1_10]
  unfold out1_10
  rw [View.canon_unit_zero hz]
  simp only [View.ld_unit_zero (S := S2000x128) hz, View.ld_unit_zero (S := S2000x1) hz, View.ld_unit_zero (S := S1x128) hz,
    View.ld_unit_zero (S := S256x128) hz, View.ld_unit_zero (S := S128x128) hz]
  funext j
  obtain ⟨r, q, rfl⟩ : ∃ (r : Fin 2000) (q : Fin 128), j = ix2 r q := ⟨j 0, j 1, eq_ix2 j⟩
  have hlt : 2000 * t.val + r.val < 40000 := by have := t.isLt; have := r.isLt; have : cfg1.N = 20 := N_1; omega
  show k1_pay1 (F := Ideal) (k1_pay2 (iblk1 V c 1 t) (iblk1 V c 2 t) (iblk1 V c 3 t) (iblk1 V c 4 t))
      (k1_pay3 (iblk1 V c 0 t) (iblk1 V c 1 t) (iblk1 V c 2 t) (iblk1 V c 3 t) (iblk1 V c 4 t) (iblk1 V c 7 t))
      (iblk1 V c 5 t) (iblk1 V c 6 t) (iblk1 V c 8 t) (iblk1 V c 9 t) (ix2 r q)
    = result V c (((cfg1.win 10).blk t).view.emb (ix2 r q))
  have hemb : ((cfg1.win 10).blk t).view.emb (ix2 r q) = (ix2 (⟨2000 * t.val + r.val, hlt⟩ : Fin 40000) q : S40000x128.Idx) := by
    funext a
    apply Fin.ext
    match a with
    | ⟨0, _⟩ => show win1_10.index t 0 * 2000 + 1 * r.val = 2000 * t.val + r.val; rw [e0]; omega
    | ⟨1, _⟩ => show win1_10.index t 1 * 128 + 1 * q.val = q.val; rw [e1]; omega
  rw [hemb, body_apply]
  show _ = Spec.outRow _ _ _ _ _ _ _ _ _ _ q
  congr 1
  · funext l; exact blk_x V c t r l ⟨2000 * t.val + r.val, hlt⟩ rfl
  · funext l; exact blk_agg V c t r l ⟨2000 * t.val + r.val, hlt⟩ rfl
  · exact blk_cnt V c t r 0 ⟨2000 * t.val + r.val, hlt⟩ rfl
  · funext l; exact blk_g1 V c t 0 l
  · funext l; exact blk_b1 V c t 0 l
  · funext l; exact blk_g2 V c t 0 l
  · funext l; exact blk_b2 V c t 0 l
  · funext l; exact blk_w V c t 0 l
  · funext l k; exact blk_o1 V c t l k
  · funext l k; exact blk_o2 V c t l k

/-- An index of the array is in point t's block iff each coordinate is in the block's range on its axis. -/
theorem mem_blk (t : Fin cfg1.N) (i : S40000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v25).slice (win1_10.rect t)).set ↔ _
  rw [View.set_slice_whole, Rect.mem_set_unit]
  exact Iff.rfl

/-- Every row of the result array is in the block of the point its row number divided by 2000 names. -/
theorem cover (i : S40000x128.Idx) : ∃ t : Fin cfg1.N, (cfg1.win 10).flush t = true ∧ i ∈ ((cfg1.win 10).blk t).view.set := by
  have hi0 : (i 0).val < 40000 := (i 0).isLt
  have hi1 : (i 1).val < 128 := (i 1).isLt
  have hN : cfg1.N = 20 := N_1
  let t : Fin cfg1.N := ⟨(i 0).val / 2000, by rw [hN]; omega⟩
  obtain ⟨e0, e1⟩ := (idx_facts t).2.2.2.2.2.2.2.2.2.2
  refine ⟨t, flush1_10 t, ?_⟩
  rw [mem_blk]
  intro a
  have ht : t.val = (i 0).val / 2000 := rfl
  match a with
  | ⟨0, _⟩ => show win1_10.index t 0 * 2000 ≤ (i 0).val ∧ (i 0).val < win1_10.index t 0 * 2000 + 2000; rw [e0, ht]; omega
  | ⟨1, _⟩ => show win1_10.index t 1 * 128 ≤ (i 1).val ∧ (i 1).val < win1_10.index t 1 * 128 + 128; rw [e1]; omega

/-- The second region's result array after the region. -/
theorem final (c : Dev nD) : (dat1 V c).arrAt 10 cfg1.N = result V c :=
  (dat1 V c).arrAt_eq_of_cover 10 (result V c) (fun t _ => flushed_eq V c t) cover

end Cert.KernelIdeal.Reg1

end
-- ==== Proof.KValue.lean ====
/-
  The idealized kernel program's result array as ONE function of the launch memory: the host operations' results
  (Proof/HostReads.lean) fed through the two regions' result arrays (Proof/Reg0.lean, Proof/Reg1.lean). The in-degree
  column and the one-row feature matrices the second region stages read back to the in-degree vector and the feature
  vectors, so the result is `outArr` of the arguments, the summed messages and the in-degrees.
-/
import proofs.«175304_j43980465111676_1_alg».proof.Proof.HostReads
import proofs.«175304_j43980465111676_1_alg».proof.Proof.Reg0
import proofs.«175304_j43980465111676_1_alg».proof.Proof.Reg1
import Idealize.ShloMosaic.Lib.ValueLayout

set_option maxRecDepth 16384

noncomputable section

namespace Cert.KernelIdeal.KValue

open Cert.KernelIdeal Cert.KernelIdeal.Gen Cert.KernelIdeal.HostReads Idealize.ShloMosaic Idealize.ShloMosaic.TcCoe Idealize.SL.Sem
open Idealize.ShloMosaic.ValueIdx

/-- A vector kept as a column reads, at row i, the vector at i. -/
theorem column_apply (cnt : (⟨1, ![40000]⟩ : Shape).Idx → EReal) (h : (⟨1, ![40000]⟩ : Shape).BroadcastsInDim ⟨2, ![40000, 1]⟩ ![0])
    (i : Fin 40000) : broadcastInDim ⟨2, ![40000, 1]⟩ ![0] h cnt (ix2 i (0 : Fin 1)) = cnt (ix1 i) := by
  refine broadcastInDim_apply ![0] h cnt (ix2 i (0 : Fin 1)) (ix1 i) ?_
  intro a
  match a with
  | ⟨0, _⟩ => show i.val = if (40000 : ℕ) = 1 then 0 else i.val; rw [if_neg (by decide)]

/-- The result from the arrays as the second region stages them is the result from the vectors they were made of. -/
theorem outArrK_eq (x agg : (⟨2, ![40000, 128]⟩ : Shape).Idx → EReal) (cnt : (⟨1, ![40000]⟩ : Shape).Idx → EReal)
    (g1 b1 g2 b2 w : (⟨1, ![128]⟩ : Shape).Idx → EReal) (O1 : (⟨2, ![256, 128]⟩ : Shape).Idx → EReal)
    (O2 : (⟨2, ![128, 128]⟩ : Shape).Idx → EReal)
    (hc : (⟨1, ![40000]⟩ : Shape).BroadcastsInDim ⟨2, ![40000, 1]⟩ ![0]) (hs : (⟨1, ![128]⟩ : Shape).ShapeCasts ⟨2, ![1, 128]⟩) :
    Spec.outArrK x agg (broadcastInDim ⟨2, ![40000, 1]⟩ ![0] hc cnt) (shapeCast ⟨2, ![1, 128]⟩ g1 hs) (shapeCast ⟨2, ![1, 128]⟩ b1 hs)
        (shapeCast ⟨2, ![1, 128]⟩ g2 hs) (shapeCast ⟨2, ![1, 128]⟩ b2 hs) (shapeCast ⟨2, ![1, 128]⟩ w hs) O1 O2
      = Spec.outArr x agg cnt g1 b1 g2 b2 w O1 O2 := by
  funext i
  unfold Spec.outArrK Spec.outArr
  simp only [shapeCast_a_1a_apply]
  rw [column_apply cnt hc (i 0)]

variable (m : (ℓ : Loc nD τ sig) → Buf (Elt Ideal) ℓ) (ρ : Dev nD → PrngReg)

/-! ## The first region's entry contents -/

theorem V1_v10 (c : Dev nD) : V1 m ρ c main_v10 = gathered (m ((c : Thread nD τ).loc main_arg0)) (m ((c : Thread nD τ).loc main_arg1)) :=
  pre_v10 (W0 m ρ c)
theorem V1_arg7 (c : Dev nD) : V1 m ρ c main_arg7 = m ((c : Thread nD τ).loc main_arg7) := pre_arg7 (W0 m ρ c)
theorem V1_arg8 (c : Dev nD) : V1 m ρ c main_arg8 = m ((c : Thread nD τ).loc main_arg8) := pre_arg8 (W0 m ρ c)

/-- The messages as the launch memory gives them. -/
abbrev messages (c : Dev nD) : S640000x128.Idx → EReal :=
  Spec.msgArr (gathered (m ((c : Thread nD τ).loc main_arg0)) (m ((c : Thread nD τ).loc main_arg1))) (m ((c : Thread nD τ).loc main_arg7)) (m ((c : Thread nD τ).loc main_arg8))

/-! ## After the first region -/

theorem W2_v11 (c : Dev nD) : W2 m ρ c (Proc.devRef .tc main_v11) = messages m c := by
  refine (W2_arr m ρ c 3).trans ((Reg0.final (V1 m ρ) c).trans ?_)
  show Spec.msgArr (V1 m ρ c main_v10) (V1 m ρ c main_arg7) (V1 m ρ c main_arg8) = _
  rw [V1_v10, V1_arg7, V1_arg8]

theorem W2_v3 (c : Dev nD) : W2 m ρ c (Proc.devRef .tc main_v3) = dstIdx (m ((c : Thread nD τ).loc main_arg1)) :=
  (W2_of_ne m ρ c main_v3 (by decide)).trans (pre_v3 (W0 m ρ c))
theorem W2_arg0 (c : Dev nD) : W2 m ρ c (Proc.devRef .tc main_arg0) = m ((c : Thread nD τ).loc main_arg0) :=
  (W2_of_ne m ρ c main_arg0 (by decide)).trans (pre_arg0 (W0 m ρ c))
theorem W2_arg2 (c : Dev nD) : W2 m ρ c (Proc.devRef .tc main_arg2) = m ((c : Thread nD τ).loc main_arg2) :=
  (W2_of_ne m ρ c main_arg2 (by decide)).trans (pre_arg2 (W0 m ρ c))
theorem W2_arg3 (c : Dev nD) : W2 m ρ c (Proc.devRef .tc main_arg3) = m ((c : Thread nD τ).loc main_arg3) :=
  (W2_of_ne m ρ c main_arg3 (by decide)).trans (pre_arg3 (W0 m ρ c))
theorem W2_arg4 (c : Dev nD) : W2 m ρ c (Proc.devRef .tc main_arg4) = m ((c : Thread nD τ).loc main_arg4) :=
  (W2_of_ne m ρ c main_arg4 (by decide)).trans (pre_arg4 (W0 m ρ c))
theorem W2_arg5 (c : Dev nD) : W2 m ρ c (Proc.devRef .tc main_arg5) = m ((c : Thread nD τ).loc main_arg5) :=
  (W2_of_ne m ρ c main_arg5 (by decide)).trans (pre_arg5 (W0 m ρ c))
theorem W2_arg6 (c : Dev nD) : W2 m ρ c (Proc.devRef .tc main_arg6) = m ((c : Thread nD τ).loc main_arg6) :=
  (W2_of_ne m ρ c main_arg6 (by decide)).trans (pre_arg6 (W0 m ρ c))
theorem W2_arg9 (c : Dev nD) : W2 m ρ c (Proc.devRef .tc main_arg9) = m ((c : Thread nD τ).loc main_arg9) :=
  (W2_of_ne m ρ c main_arg9 (by decide)).trans (pre_arg9 (W0 m ρ c))
theorem W2_arg10 (c : Dev nD) : W2 m ρ c (Proc.devRef .tc main_arg10) = m ((c : Thread nD τ).loc main_arg10) :=
  (W2_of_ne m ρ c main_arg10 (by decide)).trans (pre_arg10 (W0 m ρ c))

/-! ## The second region's entry contents -/

theorem V3_arg0 (c : Dev nD) : V3 m ρ c main_arg0 = m ((c : Thread nD τ).loc main_arg0) := (mid_arg0 (W2 m ρ c)).trans (W2_arg0 m ρ c)
theorem V3_arg9 (c : Dev nD) : V3 m ρ c main_arg9 = m ((c : Thread nD τ).loc main_arg9) := (mid_arg9 (W2 m ρ c)).trans (W2_arg9 m ρ c)
theorem V3_arg10 (c : Dev nD) : V3 m ρ c main_arg10 = m ((c : Thread nD τ).loc main_arg10) := (mid_arg10 (W2 m ρ c)).trans (W2_arg10 m ρ c)
theorem V3_v14 (c : Dev nD) : V3 m ρ c main_v14 = aggOf (dstIdx (m ((c : Thread nD τ).loc main_arg1))) (messages m c) := by
  refine (mid_v14 (W2 m ρ c)).trans ?_
  rw [W2_v3, W2_v11]
theorem V3_v19 (c : Dev nD) : V3 m ρ c main_v19 = broadcastInDim S40000x1 ![0] bcast_S40000_S40000x1_0 (cntOf (dstIdx (m ((c : Thread nD τ).loc main_arg1)))) := by
  refine (mid_v19 (W2 m ρ c)).trans ?_
  rw [W2_v3]
theorem V3_v20 (c : Dev nD) : V3 m ρ c main_v20 = shapeCast S1x128 (m ((c : Thread nD τ).loc main_arg2)) shapeCasts_S128_S1x128 := by
  refine (mid_v20 (W2 m ρ c)).trans ?_
  rw [W2_arg2]
theorem V3_v21 (c : Dev nD) : V3 m ρ c main_v21 = shapeCast S1x128 (m ((c : Thread nD τ).loc main_arg3)) shapeCasts_S128_S1x128 := by
  refine (mid_v21 (W2 m ρ c)).trans ?_
  rw [W2_arg3]
theorem V3_v22 (c : Dev nD) : V3 m ρ c main_v22 = shapeCast S1x128 (m ((c : Thread nD τ).loc main_arg4)) shapeCasts_S128_S1x128 := by
  refine (mid_v22 (W2 m ρ c)).trans ?_
  rw [W2_arg4]
theorem V3_v23 (c : Dev nD) : V3 m ρ c main_v23 = shapeCast S1x128 (m ((c : Thread nD τ).loc main_arg5)) shapeCasts_S128_S1x128 := by
  refine (mid_v23 (W2 m ρ c)).trans ?_
  rw [W2_arg5]
theorem V3_v24 (c : Dev nD) : V3 m ρ c main_v24 = shapeCast S1x128 (m ((c : Thread nD τ).loc main_arg6)) shapeCasts_S128_S1x128 := by
  refine (mid_v24 (W2 m ρ c)).trans ?_
  rw [W2_arg6]

/-! ## The result -/

/-- The result array as the launch memory gives it. -/
abbrev result (c : Dev nD) : S40000x128.Idx → EReal :=
  Spec.outArr (m ((c : Thread nD τ).loc main_arg0)) (aggOf (dstIdx (m ((c : Thread nD τ).loc main_arg1))) (messages m c))
    (cntOf (dstIdx (m ((c : Thread nD τ).loc main_arg1))))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg9))
    (m ((c : Thread nD τ).loc main_arg10))

theorem W4_v25 (c : Dev nD) : W4 m ρ c (Proc.devRef .tc main_v25) = result m c := by
  refine (W4_arr m ρ c 10).trans ((Reg1.final (V3 m ρ) c).trans ?_)
  show Spec.outArrK (V3 m ρ c main_arg0) (V3 m ρ c main_v14) (V3 m ρ c main_v19) (V3 m ρ c main_v20) (V3 m ρ c main_v21)
    (V3 m ρ c main_v22) (V3 m ρ c main_v23) (V3 m ρ c main_v24) (V3 m ρ c main_arg9) (V3 m ρ c main_arg10) = _
  rw [V3_arg0, V3_v14, V3_v19, V3_v20, V3_v21, V3_v22, V3_v23, V3_v24, V3_arg9, V3_arg10]
  exact outArrK_eq _ _ _ _ _ _ _ _ _ _ _ _

end Cert.KernelIdeal.KValue

end
-- ==== Proof.RefTerms.lean ====
/-
  The reference's host operations after the edge messages, grouped into the stages the mathematics has: the mean message
  (the summed messages over the clipped in-degree), a layer normalisation, the residual mix, and the two-layer
  perceptron on the two normalised arrays laid side by side; and the edge perceptron itself. Each is the reference's own
  composition of whole-array operations, stated once so that the run's result is a composition of five named stages.
-/
import proofs.«175304_j43980465111676_1_alg».proof.Proof.Gen.ReferenceIdeal

noncomputable section

namespace Cert.RefTerms

open Cert.ReferenceIdeal Cert.ReferenceIdeal.Gen Idealize.ShloMosaic

variable {F : FTy → Type} [FloatOps F]

/-- The edge perceptron on the gathered source rows: `relu (xg · W1) · W2`. -/
def refMsg (xg : FVec F S640000x128 .f32) (W1 W2 : FVec F S128x128 .f32) : FVec F S640000x128 .f32 :=
  Host.dotGeneral dot_S640000x128_S128x128_S640000x128_1_0_0_1_n_n none (maximumf (Host.dotGeneral dot_S640000x128_S128x128_S640000x128_1_0_0_1_n_n none xg W1) (broadcastInDim S640000x128 ![] bcast_S_S640000x128 (constant S_ .f32 0x00000000#32))) W2

/-- The mean message: the summed messages divided, row by row, by the in-degree clipped below at one. -/
def refMean (agg : FVec F S40000x128 .f32) (cnt : FVec F S40000 .f32) : FVec F S40000x128 .f32 :=
  Host.divf agg (broadcastInDim S40000x128 ![0, 1] bcast_S40000x1_S40000x128_0_1 (broadcastInDim S40000x1 ![0] bcast_S40000_S40000x1_0 (maximumf cnt (broadcastInDim S40000 ![] bcast_S_S40000 (constant S_ .f32 0x3F800000#32)))))

/-- The row means of an array, kept as a column. -/
def refRowMean (v : FVec F S40000x128 .f32) : FVec F S40000x1 .f32 :=
  Host.divf (broadcastInDim S40000x1 ![0] bcast_S40000_S40000x1_0 (Host.reduceAdd v (constant S_ .f32 0x00000000#32) reducesTo_S40000x128_S40000_d1 h_S_)) (broadcastInDim S40000x1 ![] bcast_S_S40000x1 (constant S_ .f32 0x43000000#32))

/-- Layer normalisation of every row, with a gain and a bias along the features. -/
def refLN (v : FVec F S40000x128 .f32) (g b : FVec F S128 .f32) : FVec F S40000x128 .f32 :=
  addf (mulf (mulf (subf v (broadcastInDim S40000x128 ![0, 1] bcast_S40000x1_S40000x128_0_1 (refRowMean v))) (broadcastInDim S40000x128 ![0, 1] bcast_S40000x1_S40000x128_0_1 (Host.rsqrt (addf (Host.divf (broadcastInDim S40000x1 ![0] bcast_S40000_S40000x1_0 (Host.reduceAdd (mulf (subf v (broadcastInDim S40000x128 ![0, 1] bcast_S40000x1_S40000x128_0_1 (refRowMean v))) (subf v (broadcastInDim S40000x128 ![0, 1] bcast_S40000x1_S40000x128_0_1 (refRowMean v)))) (constant S_ .f32 0x00000000#32) reducesTo_S40000x128_S40000_d1 h_S_)) (broadcastInDim S40000x1 ![] bcast_S_S40000x1 (constant S_ .f32 0x43000000#32))) (broadcastInDim S40000x1 ![] bcast_S_S40000x1 (constant S_ .f32 0x3727C5AC#32)))))) (broadcastInDim S40000x128 ![0, 1] bcast_S1x128_S40000x128_0_1 (broadcastInDim S1x128 ![1] bcast_S128_S1x128_1 g))) (broadcastInDim S40000x128 ![0, 1] bcast_S1x128_S40000x128_0_1 (broadcastInDim S1x128 ![1] bcast_S128_S1x128_1 b))

/-- The residual mix `x + (x - n) * w`, the weight along the features. -/
def refMix (x n : FVec F S40000x128 .f32) (w : FVec F S128 .f32) : FVec F S40000x128 .f32 :=
  addf x (mulf (subf x n) (broadcastInDim S40000x128 ![0, 1] bcast_S1x128_S40000x128_0_1 (broadcastInDim S1x128 ![1] bcast_S128_S1x128_1 w)))

/-- The output perceptron on two arrays laid side by side along the features. -/
def refHead (a b : FVec F S40000x128 .f32) (O1 : FVec F S256x128 .f32) (O2 : FVec F S128x128 .f32) : FVec F S40000x128 .f32 :=
  Host.dotGeneral dot_S40000x128_S128x128_S40000x128_1_0_0_1_n_n none (maximumf (Host.dotGeneral dot_S40000x256_S256x128_S40000x128_1_0_0_1_n_n none (concatenate S40000x256 1 [⟨S40000x128, a⟩, ⟨S40000x128, b⟩] concatenates_S40000x128_S40000x128_S40000x256_d1) O1) (broadcastInDim S40000x128 ![] bcast_S_S40000x128 (constant S_ .f32 0x00000000#32))) O2

end Cert.RefTerms

end
-- ==== Proof.RefRead.lean ====
/-
  The reference's stages read at an index: each stage of Proof/RefTerms.lean, at row `i` and feature `j`, is the row
  function of Proof/Spec.lean applied to row `i` of its operands.

  First one small reading per whole-array operation the stages use (the four broadcast forms, the row sum, the three
  matrix products, the concatenation), each over variables; then every stage is opened and rewritten with them.
-/
import proofs.«175304_j43980465111676_1_alg».proof.Proof.RefTerms
import proofs.«175304_j43980465111676_1_alg».proof.Proof.Spec
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

namespace Cert.RefRead

open Cert.ReferenceIdeal Cert.ReferenceIdeal.Gen Cert.RefTerms Idealize.ShloMosaic Idealize.ShloMosaic.ValueIdx

/-! ## Broadcasts at an index -/

section Broadcasts
variable {α : Type}

/-- A scalar constant broadcast to any shape reads the constant's value. -/
theorem bcastConst_apply {T : Shape} (h : S_.BroadcastsInDim T ![]) (c : BitVec 32) (j : T.Idx) :
    broadcastInDim T ![] h (constant (F := Ideal) S_ .f32 c) j = Ideal.ofBits .f32 c := by
  rw [broadcastInDim_scalar_apply]; rfl

/-- A vector laid as a column reads the vector at the row. -/
theorem bcastCol_apply (x : S40000.Idx → α) (i : Fin 40000) (z : Fin 1) :
    broadcastInDim S40000x1 ![0] bcast_S40000_S40000x1_0 x (ix2 i z) = x (ix1 i) := by
  refine broadcastInDim_apply ![0] bcast_S40000_S40000x1_0 x (ix2 i z) (ix1 i) ?_
  intro a
  match a with
  | ⟨0, _⟩ => rfl

/-- A column laid along the features reads the column at the row. -/
theorem bcastColRow_apply (y : S40000x1.Idx → α) (i : Fin 40000) (k : Fin 128) :
    broadcastInDim S40000x128 ![0, 1] bcast_S40000x1_S40000x128_0_1 y (ix2 i k) = y (ix2 i (0 : Fin 1)) := by
  refine broadcastInDim_apply ![0, 1] bcast_S40000x1_S40000x128_0_1 y (ix2 i k) (ix2 i (0 : Fin 1)) ?_
  intro a
  match a with
  | ⟨0, _⟩ => rfl
  | ⟨1, _⟩ => rfl

/-- A feature vector laid as one row and then down the rows reads the vector at the feature. -/
theorem bcastFeat_apply (g : S128.Idx → α) (i : Fin 40000) (k : Fin 128) :
    broadcastInDim S40000x128 ![0, 1] bcast_S1x128_S40000x128_0_1 (broadcastInDim S1x128 ![1] bcast_S128_S1x128_1 g) (ix2 i k)
      = g (ix1 k) := by
  rw [broadcastInDim_oneRow_apply]
  refine broadcastInDim_apply ![1] bcast_S128_S1x128_1 g (ix2 (0 : Fin 1) k) (ix1 k) ?_
  intro a
  match a with
  | ⟨0, _⟩ => rfl

end Broadcasts

/-! ## The row sum and the pointwise host operations at an index -/

/-- The host's sum over the features of a row, from the float zero: the plain sum of the row's entries. -/
theorem rowSum_apply (v : FVec Ideal S40000x128 .f32) (i : Fin 40000) :
    Host.reduceAdd v (constant S_ .f32 0x00000000#32) reducesTo_S40000x128_S40000_d1 h_S_ (ix1 i)
      = ∑ k : Fin 128, v (ix2 i k) := by
  rw [hostReduceAdd_apply, Ideal.hostReduceAdd_single reducesTo_S40000x128_S40000_d1 (by decide)]
  rw [constant_apply, Ideal.ofBits_zero_f32, zero_add]
  refine Finset.sum_congr rfl fun k _ => ?_
  exact congrArg v (funext fun a => Fin.ext (by match a with | ⟨0, _⟩ => rfl | ⟨1, _⟩ => rfl))

/-- The host's reciprocal square root at an index is the extended reals' one of the element. -/
theorem hostRsqrt_apply {s : Shape} (x : FVec Ideal s .f32) (j : s.Idx) : Host.rsqrt x j = Ideal.rsqrt (x j) := rfl

/-! ## The matrix products at an index -/

/-! ### The product `[640000, 128] · [128, 128]` at an index -/

theorem lhs_edge_0 (i : S640000x128.Idx) (q : dot_S640000x128_S128x128_S640000x128_1_0_0_1_n_n.contr.Idx) :
    (dot_S640000x128_S128x128_S640000x128_1_0_0_1_n_n.lhsIdx i q 0).val = (i 0).val := by
  unfold DotDims.lhsIdx
  rw [dif_neg (show ¬(0 : Fin S640000x128.rank) ∈ dot_S640000x128_S128x128_S640000x128_1_0_0_1_n_n.lhsBatch by decide), dif_pos (show (0 : Fin S640000x128.rank) ∈ dot_S640000x128_S128x128_S640000x128_1_0_0_1_n_n.lhsNonContracting by decide)]
  rfl

theorem lhs_edge_1 (i : S640000x128.Idx) (q : dot_S640000x128_S128x128_S640000x128_1_0_0_1_n_n.contr.Idx) :
    (dot_S640000x128_S128x128_S640000x128_1_0_0_1_n_n.lhsIdx i q 1).val = (q ⟨0, by decide⟩).val :=
  dot_S640000x128_S128x128_S640000x128_1_0_0_1_n_n.lhsIdx_val_of_single rfl i q

theorem rhs_edge_0 (i : S640000x128.Idx) (q : dot_S640000x128_S128x128_S640000x128_1_0_0_1_n_n.contr.Idx) :
    (dot_S640000x128_S128x128_S640000x128_1_0_0_1_n_n.rhsIdx i q 0).val = (q ⟨0, by decide⟩).val :=
  dot_S640000x128_S128x128_S640000x128_1_0_0_1_n_n.rhsIdx_val_of_single rfl i q

theorem rhs_edge_1 (i : S640000x128.Idx) (q : dot_S640000x128_S128x128_S640000x128_1_0_0_1_n_n.contr.Idx) :
    (dot_S640000x128_S128x128_S640000x128_1_0_0_1_n_n.rhsIdx i q 1).val = (i 1).val := by
  unfold DotDims.rhsIdx
  rw [dif_neg (show ¬(1 : Fin S128x128.rank) ∈ dot_S640000x128_S128x128_S640000x128_1_0_0_1_n_n.rhsBatch by decide), dif_pos (show (1 : Fin S128x128.rank) ∈ dot_S640000x128_S128x128_S640000x128_1_0_0_1_n_n.rhsNonContracting by decide)]
  rfl

/-- The host's product at row `r`, column `c`: the sum over the contracted axis of the left row times the right column. -/
theorem dot_edge_apply (x : FVec Ideal S640000x128 .f32) (w : FVec Ideal S128x128 .f32) (r : Fin 640000) (c : Fin 128) :
    Host.dotGeneral dot_S640000x128_S128x128_S640000x128_1_0_0_1_n_n none x w (ix2 r c) = ∑ k : Fin 128, x (ix2 r k) * w (ix2 k c) := by
  simp only [Host.dotGeneral]
  rw [Ideal.dotGeneral_apply, ← Equiv.sum_comp (ValueIdx.contrEquiv1 dot_S640000x128_S128x128_S640000x128_1_0_0_1_n_n 128 rfl rfl).symm]
  refine Finset.sum_congr rfl fun k _ => ?_
  have hk := ValueIdx.contrEquiv1_symm_val dot_S640000x128_S128x128_S640000x128_1_0_0_1_n_n 128 rfl rfl k
  have el : dot_S640000x128_S128x128_S640000x128_1_0_0_1_n_n.lhsIdx (ix2 r c) ((ValueIdx.contrEquiv1 dot_S640000x128_S128x128_S640000x128_1_0_0_1_n_n 128 rfl rfl).symm k) = ix2 r k := funext fun a => Fin.ext (by
    match a with
    | ⟨0, _⟩ => exact lhs_edge_0 _ _
    | ⟨1, _⟩ => exact (lhs_edge_1 _ _).trans hk)
  have er : dot_S640000x128_S128x128_S640000x128_1_0_0_1_n_n.rhsIdx (ix2 r c) ((ValueIdx.contrEquiv1 dot_S640000x128_S128x128_S640000x128_1_0_0_1_n_n 128 rfl rfl).symm k) = ix2 k c := funext fun a => Fin.ext (by
    match a with
    | ⟨0, _⟩ => exact (rhs_edge_0 _ _).trans hk
    | ⟨1, _⟩ => exact rhs_edge_1 _ _)
  rw [el, er]

/-! ### The product `[40000, 256] · [256, 128]` at an index -/

theorem lhs_cat_0 (i : S40000x128.Idx) (q : dot_S40000x256_S256x128_S40000x128_1_0_0_1_n_n.contr.Idx) :
    (dot_S40000x256_S256x128_S40000x128_1_0_0_1_n_n.lhsIdx i q 0).val = (i 0).val := by
  unfold DotDims.lhsIdx
  rw [dif_neg (show ¬(0 : Fin S40000x256.rank) ∈ dot_S40000x256_S256x128_S40000x128_1_0_0_1_n_n.lhsBatch by decide), dif_pos (show (0 : Fin S40000x256.rank) ∈ dot_S40000x256_S256x128_S40000x128_1_0_0_1_n_n.lhsNonContracting by decide)]
  rfl

theorem lhs_cat_1 (i : S40000x128.Idx) (q : dot_S40000x256_S256x128_S40000x128_1_0_0_1_n_n.contr.Idx) :
    (dot_S40000x256_S256x128_S40000x128_1_0_0_1_n_n.lhsIdx i q 1).val = (q ⟨0, by decide⟩).val :=
  dot_S40000x256_S256x128_S40000x128_1_0_0_1_n_n.lhsIdx_val_of_single rfl i q

theorem rhs_cat_0 (i : S40000x128.Idx) (q : dot_S40000x256_S256x128_S40000x128_1_0_0_1_n_n.contr.Idx) :
    (dot_S40000x256_S256x128_S40000x128_1_0_0_1_n_n.rhsIdx i q 0).val = (q ⟨0, by decide⟩).val :=
  dot_S40000x256_S256x128_S40000x128_1_0_0_1_n_n.rhsIdx_val_of_single rfl i q

theorem rhs_cat_1 (i : S40000x128.Idx) (q : dot_S40000x256_S256x128_S40000x128_1_0_0_1_n_n.contr.Idx) :
    (dot_S40000x256_S256x128_S40000x128_1_0_0_1_n_n.rhsIdx i q 1).val = (i 1).val := by
  unfold DotDims.rhsIdx
  rw [dif_neg (show ¬(1 : Fin S256x128.rank) ∈ dot_S40000x256_S256x128_S40000x128_1_0_0_1_n_n.rhsBatch by decide), dif_pos (show (1 : Fin S256x128.rank) ∈ dot_S40000x256_S256x128_S40000x128_1_0_0_1_n_n.rhsNonContracting by decide)]
  rfl

/-- The host's product at row `r`, column `c`: the sum over the contracted axis of the left row times the right column. -/
theorem dot_cat_apply (x : FVec Ideal S40000x256 .f32) (w : FVec Ideal S256x128 .f32) (r : Fin 40000) (c : Fin 128) :
    Host.dotGeneral dot_S40000x256_S256x128_S40000x128_1_0_0_1_n_n none x w (ix2 r c) = ∑ k : Fin 256, x (ix2 r k) * w (ix2 k c) := by
  simp only [Host.dotGeneral]
  rw [Ideal.dotGeneral_apply, ← Equiv.sum_comp (ValueIdx.contrEquiv1 dot_S40000x256_S256x128_S40000x128_1_0_0_1_n_n 256 rfl rfl).symm]
  refine Finset.sum_congr rfl fun k _ => ?_
  have hk := ValueIdx.contrEquiv1_symm_val dot_S40000x256_S256x128_S40000x128_1_0_0_1_n_n 256 rfl rfl k
  have el : dot_S40000x256_S256x128_S40000x128_1_0_0_1_n_n.lhsIdx (ix2 r c) ((ValueIdx.contrEquiv1 dot_S40000x256_S256x128_S40000x128_1_0_0_1_n_n 256 rfl rfl).symm k) = ix2 r k := funext fun a => Fin.ext (by
    match a with
    | ⟨0, _⟩ => exact lhs_cat_0 _ _
    | ⟨1, _⟩ => exact (lhs_cat_1 _ _).trans hk)
  have er : dot_S40000x256_S256x128_S40000x128_1_0_0_1_n_n.rhsIdx (ix2 r c) ((ValueIdx.contrEquiv1 dot_S40000x256_S256x128_S40000x128_1_0_0_1_n_n 256 rfl rfl).symm k) = ix2 k c := funext fun a => Fin.ext (by
    match a with
    | ⟨0, _⟩ => exact (rhs_cat_0 _ _).trans hk
    | ⟨1, _⟩ => exact rhs_cat_1 _ _)
  rw [el, er]

/-! ### The product `[40000, 128] · [128, 128]` at an index -/

theorem lhs_node_0 (i : S40000x128.Idx) (q : dot_S40000x128_S128x128_S40000x128_1_0_0_1_n_n.contr.Idx) :
    (dot_S40000x128_S128x128_S40000x128_1_0_0_1_n_n.lhsIdx i q 0).val = (i 0).val := by
  unfold DotDims.lhsIdx
  rw [dif_neg (show ¬(0 : Fin S40000x128.rank) ∈ dot_S40000x128_S128x128_S40000x128_1_0_0_1_n_n.lhsBatch by decide), dif_pos (show (0 : Fin S40000x128.rank) ∈ dot_S40000x128_S128x128_S40000x128_1_0_0_1_n_n.lhsNonContracting by decide)]
  rfl

theorem lhs_node_1 (i : S40000x128.Idx) (q : dot_S40000x128_S128x128_S40000x128_1_0_0_1_n_n.contr.Idx) :
    (dot_S40000x128_S128x128_S40000x128_1_0_0_1_n_n.lhsIdx i q 1).val = (q ⟨0, by decide⟩).val :=
  dot_S40000x128_S128x128_S40000x128_1_0_0_1_n_n.lhsIdx_val_of_single rfl i q

theorem rhs_node_0 (i : S40000x128.Idx) (q : dot_S40000x128_S128x128_S40000x128_1_0_0_1_n_n.contr.Idx) :
    (dot_S40000x128_S128x128_S40000x128_1_0_0_1_n_n.rhsIdx i q 0).val = (q ⟨0, by decide⟩).val :=
  dot_S40000x128_S128x128_S40000x128_1_0_0_1_n_n.rhsIdx_val_of_single rfl i q

theorem rhs_node_1 (i : S40000x128.Idx) (q : dot_S40000x128_S128x128_S40000x128_1_0_0_1_n_n.contr.Idx) :
    (dot_S40000x128_S128x128_S40000x128_1_0_0_1_n_n.rhsIdx i q 1).val = (i 1).val := by
  unfold DotDims.rhsIdx
  rw [dif_neg (show ¬(1 : Fin S128x128.rank) ∈ dot_S40000x128_S128x128_S40000x128_1_0_0_1_n_n.rhsBatch by decide), dif_pos (show (1 : Fin S128x128.rank) ∈ dot_S40000x128_S128x128_S40000x128_1_0_0_1_n_n.rhsNonContracting by decide)]
  rfl

/-- The host's product at row `r`, column `c`: the sum over the contracted axis of the left row times the right column. -/
theorem dot_node_apply (x : FVec Ideal S40000x128 .f32) (w : FVec Ideal S128x128 .f32) (r : Fin 40000) (c : Fin 128) :
    Host.dotGeneral dot_S40000x128_S128x128_S40000x128_1_0_0_1_n_n none x w (ix2 r c) = ∑ k : Fin 128, x (ix2 r k) * w (ix2 k c) := by
  simp only [Host.dotGeneral]
  rw [Ideal.dotGeneral_apply, ← Equiv.sum_comp (ValueIdx.contrEquiv1 dot_S40000x128_S128x128_S40000x128_1_0_0_1_n_n 128 rfl rfl).symm]
  refine Finset.sum_congr rfl fun k _ => ?_
  have hk := ValueIdx.contrEquiv1_symm_val dot_S40000x128_S128x128_S40000x128_1_0_0_1_n_n 128 rfl rfl k
  have el : dot_S40000x128_S128x128_S40000x128_1_0_0_1_n_n.lhsIdx (ix2 r c) ((ValueIdx.contrEquiv1 dot_S40000x128_S128x128_S40000x128_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S40000x128_S128x128_S40000x128_1_0_0_1_n_n.rhsIdx (ix2 r c) ((ValueIdx.contrEquiv1 dot_S40000x128_S128x128_S40000x128_1_0_0_1_n_n 128 rfl rfl).symm k) = ix2 k c := funext fun a => Fin.ext (by
    match a with
    | ⟨0, _⟩ => exact (rhs_node_0 _ _).trans hk
    | ⟨1, _⟩ => exact rhs_node_1 _ _)
  rw [el, er]

/-! ## The concatenation at an index -/

/-- Two arrays laid side by side along the features, at row `i` and feature `l`: the two rows side by side, at `l`
    (the first array's entry when `l` is below 128, else the second's at `l - 128`). -/
theorem cat_apply (a b : FVec Ideal S40000x128 .f32) (i : Fin 40000) (l : Fin 256) :
    concatenate S40000x256 1 [⟨S40000x128, a⟩, ⟨S40000x128, b⟩] concatenates_S40000x128_S40000x128_S40000x256_d1 (ix2 i l)
      = Spec.catRow (fun q : Fin 128 => a (ix2 i q)) (fun q => b (ix2 i q)) l := by
  simp only [Spec.catRow]
  split
  · next h =>
    refine concatenate_pair_apply_left 1 a b _ (ix2 i l) rfl (ix2 i ⟨l.val, h⟩) ?_
    intro c
    match c with
    | ⟨0, _⟩ => rfl
    | ⟨1, _⟩ => rfl
  · next h =>
    refine concatenate_pair_apply_right 1 a b _ (ix2 i l) rfl rfl (ix2 i ⟨l.val - 128, by have := l.isLt; omega⟩) ?_ ?_
    · intro c hc
      match c with
      | ⟨0, _⟩ => rfl
      | ⟨1, _⟩ => exact absurd rfl hc
    · show (l.val - 128) + 128 = l.val
      omega

/-! ## The stages -/

theorem refMsg_apply (xg : FVec Ideal S640000x128 .f32) (W1 W2 : FVec Ideal S128x128 .f32) (i : Fin 640000) (j : Fin 128) :
    refMsg (F := Ideal) xg W1 W2 (ix2 i j)
      = Spec.mlpRow (fun l : Fin 128 => xg (ix2 i l)) (fun l k => W1 (ix2 l k)) (fun k j => W2 (ix2 k j)) j := by
  unfold refMsg Spec.mlpRow Spec.relu
  rw [dot_edge_apply]
  refine Finset.sum_congr rfl fun k _ => ?_
  rw [maximumf_apply, dot_edge_apply, bcastConst_apply]

theorem refMean_apply (agg : FVec Ideal S40000x128 .f32) (cnt : FVec Ideal S40000 .f32) (i : Fin 40000) (k : Fin 128) :
    refMean (F := Ideal) agg cnt (ix2 i k) = Spec.meanRow (fun q : Fin 128 => agg (ix2 i q)) (cnt (ix1 i)) k := by
  unfold refMean Spec.meanRow
  rw [hostDivf_apply, bcastColRow_apply, bcastCol_apply, maximumf_apply, bcastConst_apply]

/-- The column of row means at a row: the mean of that row's 128 entries. -/
theorem refRowMean_apply (v : FVec Ideal S40000x128 .f32) (i : Fin 40000) (z : Fin 1) :
    refRowMean (F := Ideal) v (ix2 i z) = Spec.mean128 (fun q : Fin 128 => v (ix2 i q)) := by
  unfold refRowMean Spec.mean128
  rw [hostDivf_apply, bcastCol_apply, rowSum_apply, bcastConst_apply]

/-- An array less its row means, at an index: the entry less its row's mean. -/
theorem centred_apply (v : FVec Ideal S40000x128 .f32) (i : Fin 40000) (k : Fin 128) :
    subf v (broadcastInDim S40000x128 ![0, 1] bcast_S40000x1_S40000x128_0_1 (refRowMean v)) (ix2 i k)
      = v (ix2 i k) - Spec.mean128 (fun q : Fin 128 => v (ix2 i q)) := by
  rw [subf_apply, bcastColRow_apply, refRowMean_apply]

/-- The row sum of the squared centred entries. -/
theorem sqSum_apply (v : FVec Ideal S40000x128 .f32) (i : Fin 40000) :
    Host.reduceAdd (mulf (subf v (broadcastInDim S40000x128 ![0, 1] bcast_S40000x1_S40000x128_0_1 (refRowMean v)))
        (subf v (broadcastInDim S40000x128 ![0, 1] bcast_S40000x1_S40000x128_0_1 (refRowMean v))))
        (constant S_ .f32 0x00000000#32) reducesTo_S40000x128_S40000_d1 h_S_ (ix1 i)
      = ∑ q : Fin 128, (v (ix2 i q) - Spec.mean128 (fun q : Fin 128 => v (ix2 i q)))
          * (v (ix2 i q) - Spec.mean128 (fun q : Fin 128 => v (ix2 i q))) := by
  rw [rowSum_apply]
  refine Finset.sum_congr rfl fun q _ => ?_
  rw [mulf_apply, centred_apply]

theorem refLN_apply (v : FVec Ideal S40000x128 .f32) (g b : FVec Ideal S128 .f32) (i : Fin 40000) (k : Fin 128) :
    refLN (F := Ideal) v g b (ix2 i k)
      = Spec.lnRow (fun q : Fin 128 => v (ix2 i q)) (fun q => g (ix1 q)) (fun q => b (ix1 q)) k := by
  unfold refLN Spec.lnRow
  rw [addf_apply, mulf_apply, mulf_apply, centred_apply, bcastColRow_apply, bcastFeat_apply, bcastFeat_apply,
    hostRsqrt_apply, addf_apply, hostDivf_apply, bcastCol_apply, sqSum_apply, bcastConst_apply, bcastConst_apply]
  rfl

theorem refMix_apply (x n : FVec Ideal S40000x128 .f32) (w : FVec Ideal S128 .f32) (i : Fin 40000) (k : Fin 128) :
    refMix (F := Ideal) x n w (ix2 i k)
      = Spec.mixRow (fun q : Fin 128 => x (ix2 i q)) (fun q => n (ix2 i q)) (fun q => w (ix1 q)) k := by
  unfold refMix Spec.mixRow
  rw [addf_apply, mulf_apply, subf_apply, bcastFeat_apply]

theorem refHead_apply (a b : FVec Ideal S40000x128 .f32) (O1 : FVec Ideal S256x128 .f32) (O2 : FVec Ideal S128x128 .f32)
    (i : Fin 40000) (j : Fin 128) :
    refHead (F := Ideal) a b O1 O2 (ix2 i j)
      = Spec.mlpRow (Spec.catRow (fun q : Fin 128 => a (ix2 i q)) (fun q => b (ix2 i q))) (fun l k => O1 (ix2 l k)) (fun k j => O2 (ix2 k j)) j := by
  unfold refHead Spec.mlpRow Spec.relu
  rw [dot_node_apply]
  refine Finset.sum_congr rfl fun k _ => ?_
  rw [maximumf_apply, dot_cat_apply, bcastConst_apply]
  simp only [cat_apply]

end Cert.RefRead

end
-- ==== Proof.RefValue.lean ====
/-
  The idealized reference's result array as ONE function of the launch memory. Its run's term is the composition of the
  stages of Proof/RefTerms.lean — the edge perceptron on the gathered rows, the scatter-adds, the mean message, a layer
  normalisation, the residual mix, a second layer normalisation and the output perceptron — and each stage read at an
  index (Proof/RefRead.lean) is the row function of Proof/Spec.lean on that row of its operands: the result is `outArr`
  of the arguments, the summed messages and the in-degrees.
-/
import proofs.«175304_j43980465111676_1_alg».proof.Proof.Gen.ReferenceIdeal.Run
import proofs.«175304_j43980465111676_1_alg».proof.Proof.RefRead
import proofs.«175304_j43980465111676_1_alg».proof.Proof.SpecArr

set_option maxRecDepth 16384

noncomputable section

namespace Cert.ReferenceIdeal.RefValue

open Cert.ReferenceIdeal Cert.ReferenceIdeal.Gen Cert.RefTerms Idealize.ShloMosaic Idealize.ShloMosaic.TcCoe Idealize.SL.Sem
open Idealize.ShloMosaic.ValueIdx

section Shared
variable {F : FTy → Type} [FloatOps F]

/-- Row 0 of the edge list as a vector: the edges' source nodes as given. -/
def srcRaw (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- Row 1 of the edge list as a vector: the edges' destination nodes. -/
def dstIdx (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The source rows of the node features, one per edge: a negative source index is wrapped once by the node count. -/
def gathered (x : (⟨S40000x128, .f32⟩ : BufTy).Contents (Elt F)) (e : (⟨S2x640000, .i32⟩ : BufTy).Contents (Elt F)) :
    (⟨S640000x128, .f32⟩ : BufTy).Contents (Elt F) :=
  Host.gather gather_S40000x128_S640000x1_S640000x128_1_0_n_n_0_1_1128 x (broadcastInDim S640000x1 ![0] bcast_S640000_S640000x1_0 (select (cmpi .slt (srcRaw e) (broadcastInDim S640000 ![] bcast_S_S640000 (constantI S_ 32 0#32))) (addi (srcRaw e) (broadcastInDim S640000 ![] bcast_S_S640000 (constantI S_ 32 40000#32))) (srcRaw e)))

/-- The messages summed into their destination nodes' rows. -/
def aggOf (d : (⟨S640000, .i32⟩ : BufTy).Contents (Elt F)) (msg : (⟨S640000x128, .f32⟩ : BufTy).Contents (Elt F)) :
    (⟨S40000x128, .f32⟩ : BufTy).Contents (Elt F) :=
  Host.scatterAdd scatter_S40000x128_S640000x1_S640000x128_1_0_0_1 (broadcastInDim S40000x128 ![] bcast_S_S40000x128 (constant S_ .f32 0x00000000#32)) (broadcastInDim S640000x1 ![0] bcast_S640000_S640000x1_0 d) msg

/-- The in-degrees: ones summed into the destination nodes. -/
def cntOf (d : (⟨S640000, .i32⟩ : BufTy).Contents (Elt F)) : (⟨S40000, .f32⟩ : BufTy).Contents (Elt F) :=
  Host.scatterAdd scatter_S40000_S640000x1_S640000_n_0_0_1 (broadcastInDim S40000 ![] bcast_S_S40000 (constant S_ .f32 0x00000000#32)) (broadcastInDim S640000x1 ![0] bcast_S640000_S640000x1_0 d) (broadcastInDim S640000 ![] bcast_S_S640000 (constant S_ .f32 0x3F800000#32))

end Shared

/-- The edge perceptron, array by array, is the row function on every row. -/
theorem msg_eq (xg : FVec Ideal S640000x128 .f32) (W1 W2 : FVec Ideal S128x128 .f32) :
    refMsg (F := Ideal) xg W1 W2 = Spec.msgArr xg W1 W2 := by
  funext i
  obtain ⟨r, j, rfl⟩ : ∃ (r : Fin 640000) (j : Fin 128), i = ix2 r j := ⟨i 0, i 1, eq_ix2 i⟩
  rw [RefRead.refMsg_apply]
  rfl

/-- The stages after the scatter-adds, composed, are the node's output row on every row. -/
theorem tail_eq (x agg : FVec Ideal S40000x128 .f32) (cnt : FVec Ideal S40000 .f32) (g1 b1 g2 b2 w : FVec Ideal S128 .f32)
    (O1 : FVec Ideal S256x128 .f32) (O2 : FVec Ideal S128x128 .f32) :
    refHead (F := Ideal) (refLN (refMix x (refLN (refMean agg cnt) g1 b1) w) g2 b2) (refLN (refMean agg cnt) g1 b1) O1 O2
      = Spec.outArr x agg cnt g1 b1 g2 b2 w O1 O2 := by
  funext i
  obtain ⟨r, j, rfl⟩ : ∃ (r : Fin 40000) (j : Fin 128), i = ix2 r j := ⟨i 0, i 1, eq_ix2 i⟩
  rw [RefRead.refHead_apply]
  simp only [RefRead.refLN_apply, RefRead.refMix_apply, RefRead.refMean_apply]
  rfl

variable (m : (ℓ : Loc nD τ sig) → Buf (Elt Ideal) ℓ) (ρ : Dev nD → PrngReg)

/-- The messages as the launch memory gives them. -/
abbrev messages (c : Dev nD) : S640000x128.Idx → EReal :=
  Spec.msgArr (gathered (m ((c.tc : Thread nD τ).loc main_arg0)) (m ((c.tc : Thread nD τ).loc main_arg1))) (m ((c.tc : Thread nD τ).loc main_arg7)) (m ((c.tc : Thread nD τ).loc main_arg8))

/-- The result array as the launch memory gives it. -/
abbrev result (c : Dev nD) : S40000x128.Idx → EReal :=
  Spec.outArr (m ((c.tc : Thread nD τ).loc main_arg0)) (aggOf (dstIdx (m ((c.tc : Thread nD τ).loc main_arg1))) (messages m c))
    (cntOf (dstIdx (m ((c.tc : Thread nD τ).loc main_arg1))))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg9))
    (m ((c.tc : Thread nD τ).loc main_arg10))

set_option maxRecDepth 131072 in
/-- The reference's run with its result named: the result array ends at `result`, the arguments as launched. -/
theorem run : θ_run defs (onTc (τ := τ) (main (F := Ideal))) ⟨m, fun _ => 0, ρ⟩ fun r => ∀ c : Dev nD,
      r.2.mem ((c.tc : Thread nD τ).loc main_v84) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c).1.trans ?_, (h c).2⟩) (Cert.ReferenceIdeal.Value.run (F := Ideal) m ρ)
  show refHead (F := Ideal)
      (refLN (refMix (m ((c.tc : Thread nD τ).loc main_arg0))
        (refLN (refMean (aggOf (dstIdx (m ((c.tc : Thread nD τ).loc main_arg1)))
            (refMsg (gathered (m ((c.tc : Thread nD τ).loc main_arg0)) (m ((c.tc : Thread nD τ).loc main_arg1))) (m ((c.tc : Thread nD τ).loc main_arg7)) (m ((c.tc : Thread nD τ).loc main_arg8))))
          (cntOf (dstIdx (m ((c.tc : Thread nD τ).loc main_arg1)))))
          (m ((c.tc : Thread nD τ).loc main_arg2)) (m ((c.tc : Thread nD τ).loc main_arg3)))
        (m ((c.tc : Thread nD τ).loc main_arg6))) (m ((c.tc : Thread nD τ).loc main_arg4)) (m ((c.tc : Thread nD τ).loc main_arg5)))
      (refLN (refMean (aggOf (dstIdx (m ((c.tc : Thread nD τ).loc main_arg1)))
            (refMsg (gathered (m ((c.tc : Thread nD τ).loc main_arg0)) (m ((c.tc : Thread nD τ).loc main_arg1))) (m ((c.tc : Thread nD τ).loc main_arg7)) (m ((c.tc : Thread nD τ).loc main_arg8))))
          (cntOf (dstIdx (m ((c.tc : Thread nD τ).loc main_arg1)))))
          (m ((c.tc : Thread nD τ).loc main_arg2)) (m ((c.tc : Thread nD τ).loc main_arg3)))
      (m ((c.tc : Thread nD τ).loc main_arg9)) (m ((c.tc : Thread nD τ).loc main_arg10)) = _
  rw [tail_eq, msg_eq]

end Cert.ReferenceIdeal.RefValue

end
-- ==== Proof.lean ====
/-
  The kernel computes one layer of a message-passing network in two tiled stages around host gathers and scatter-adds;
  the reference computes the same layer with whole-array operations. Over the extended reals the two are one function
  of the arguments.

  Both programs gather the source node's feature row for every edge (a negative index wrapped once), apply a two-layer
  perceptron with a rectifier to it, sum the messages into their destination nodes and count the in-degrees with the
  same two scatter-adds, and then, node by node: divide the summed message row by the clipped in-degree, normalise it
  (mean and variance over the 128 features, the reciprocal square root of the variance plus a constant, a gain and a
  bias), mix it into the node's own features, normalise again, lay the two normalised rows side by side and apply a
  second two-layer perceptron. The kernel does the two perceptron stages on blocks of 6400 edges and 2000 nodes; a
  row of a block's result depends only on the same row of the block's inputs, so the blocks written back are the blocks
  of one array. Nothing is re-associated or distributed: a matrix product into a zero accumulator is the host's product,
  a lane sum is the host's row sum, a change of float format is the identity; the equality needs no finiteness.

  The three frames: the two kernel programs' are the generated frame certificates; the reference has no kernel, and its
  frame is its run with the result dropped. The ideal pass rewrote nothing, so the preservation claim is trivial.
-/
import proofs.«175304_j43980465111676_1_alg».proof.Defs
import proofs.«175304_j43980465111676_1_alg».proof.Proof.Gen.Kernel
import proofs.«175304_j43980465111676_1_alg».proof.Proof.Gen.Kernel.Frame
import proofs.«175304_j43980465111676_1_alg».proof.Proof.Gen.KernelIdeal
import proofs.«175304_j43980465111676_1_alg».proof.Proof.Gen.KernelIdeal.Frame
import proofs.«175304_j43980465111676_1_alg».proof.Proof.Gen.ReferenceIdeal
import proofs.«175304_j43980465111676_1_alg».proof.Proof.Gen.Pre_finite_inputs
import proofs.«175304_j43980465111676_1_alg».proof.Proof.KRun
import proofs.«175304_j43980465111676_1_alg».proof.Proof.KValue
import proofs.«175304_j43980465111676_1_alg».proof.Proof.RefValue
import Idealize.ShloMosaic.Adequacy
import Idealize.ShloMosaic.Init

set_option maxRecDepth 16384

noncomputable section

namespace Cert.Proof

open Idealize.ShloMosaic Idealize.SL.Sem

/-! ## The host operations both programs share are the same functions -/

theorem dst_eq (e : (⟨Cert.KernelIdeal.S2x640000, .i32⟩ : BufTy).Contents (Elt Ideal)) :
    Cert.ReferenceIdeal.RefValue.dstIdx (F := Ideal) e = Cert.KernelIdeal.HostReads.dstIdx (F := Ideal) e := rfl

theorem gathered_eq (x : (⟨Cert.KernelIdeal.S40000x128, .f32⟩ : BufTy).Contents (Elt Ideal)) (e : (⟨Cert.KernelIdeal.S2x640000, .i32⟩ : BufTy).Contents (Elt Ideal)) :
    Cert.ReferenceIdeal.RefValue.gathered (F := Ideal) x e = Cert.KernelIdeal.HostReads.gathered (F := Ideal) x e := rfl

theorem agg_eq (d : (⟨Cert.KernelIdeal.S640000, .i32⟩ : BufTy).Contents (Elt Ideal)) (msg : (⟨Cert.KernelIdeal.S640000x128, .f32⟩ : BufTy).Contents (Elt Ideal)) :
    Cert.ReferenceIdeal.RefValue.aggOf (F := Ideal) d msg = Cert.KernelIdeal.HostReads.aggOf (F := Ideal) d msg := rfl

theorem cnt_eq (d : (⟨Cert.KernelIdeal.S640000, .i32⟩ : BufTy).Contents (Elt Ideal)) :
    Cert.ReferenceIdeal.RefValue.cntOf (F := Ideal) d = Cert.KernelIdeal.HostReads.cntOf (F := Ideal) d := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments both programs end with the result array at the node-by-node output rows
    of the arguments, the summed messages and the in-degrees. -/
theorem algebraic : Cert.algebraic_KernelIdeal_ReferenceIdeal := by
  intro m ρ m' ρ' _ hagree
  refine ⟨fun c => Cert.KernelIdeal.KValue.result m c, ?_, ?_⟩
  · exact (θ_run Cert.KernelIdeal.defs _ _).mono
      (fun _ h c => ⟨(h c).1.trans (Cert.KernelIdeal.KValue.W4_v25 m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.RefValue.run m' ρ')
    obtain ⟨h0, h1, h2, h3, h4, h5, h6, h7, h8, h9, h10⟩ := hagree c
    unfold Cert.ReferenceIdeal.RefValue.result Cert.ReferenceIdeal.RefValue.messages
    rw [h0, h1, h2, h3, h4, h5, h6, h7, h8, h9, h10, dst_eq, gathered_eq, agg_eq, cnt_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
